-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x480 : Shape := ⟨2, ![65536, 480]⟩
abbrev S24x480 : Shape := ⟨2, ![24, 480]⟩
abbrev S24 : Shape := ⟨1, ![24]⟩
abbrev S480x24 : Shape := ⟨2, ![480, 24]⟩
abbrev S480 : Shape := ⟨1, ![480]⟩
abbrev S72x24 : Shape := ⟨2, ![72, 24]⟩
abbrev S72 : Shape := ⟨1, ![72]⟩
abbrev S_ : Shape := ⟨0, ![]⟩

class Facts : Prop where
  bcast_S_S65536x480 : S_.BroadcastsInDim S65536x480 (![] : Fin 0 → Fin S65536x480.rank)
  reducesTo_S65536x480_S_d0_1 : S65536x480.ReducesTo [0, 1] S_
  h_S_ : 0 < S_.numel
  bcast_S_S24x480 : S_.BroadcastsInDim S24x480 (![] : Fin 0 → Fin S24x480.rank)
  reducesTo_S24x480_S_d0_1 : S24x480.ReducesTo [0, 1] S_
  bcast_S_S24 : S_.BroadcastsInDim S24 (![] : Fin 0 → Fin S24.rank)
  reducesTo_S24_S_d0 : S24.ReducesTo [0] S_
  bcast_S_S480x24 : S_.BroadcastsInDim S480x24 (![] : Fin 0 → Fin S480x24.rank)
  reducesTo_S480x24_S_d0_1 : S480x24.ReducesTo [0, 1] S_
  bcast_S_S480 : S_.BroadcastsInDim S480 (![] : Fin 0 → Fin S480.rank)
  reducesTo_S480_S_d0 : S480.ReducesTo [0] S_
  bcast_S_S72x24 : S_.BroadcastsInDim S72x24 (![] : Fin 0 → Fin S72x24.rank)
  reducesTo_S72x24_S_d0_1 : S72x24.ReducesTo [0, 1] S_
  bcast_S_S72 : S_.BroadcastsInDim S72 (![] : Fin 0 → Fin S72.rank)
  reducesTo_S72_S_d0 : S72.ReducesTo [0] S_

variable [Facts]

def fn_part4 {F : FTy → Type} [FloatOps F] (main_arg14 : FVec F S72x24 .f32) (main_arg15 : FVec F S72 .f32) (main_arg16 : FVec F S72 .f32) (main_v63 : IVec S_ 1) (main_v67 : IVec S_ 1) : IVec S_ 1 :=
  let main_v68 : IVec S_ 1 := andi main_v63 main_v67
  let main_v69 : FVec F S72x24 .f32 := Host.absf main_arg14
  let main_cst_26 : FVec F S_ .f32 := constant S_ .f32 0x7F800000#32
  let main_v70 : FVec F S72x24 .f32 := broadcastInDim S72x24 ![] bcast_S_S72x24 main_cst_26
  let main_v71 : IVec S72x24 1 := cmpf .olt main_v69 main_v70
  let main_c_27 : IVec S_ 1 := constantI S_ 1 1#1
  let main_v72 : IVec S_ 1 := (fun x v => Host.reduce IntOp.andi x v reducesTo_S72x24_S_d0_1 h_S_) main_v71 main_c_27
  let main_v73 : IVec S_ 1 := andi main_v68 main_v72
  let main_v74 : FVec F S72 .f32 := Host.absf main_arg15
  let main_cst_28 : FVec F S_ .f32 := constant S_ .f32 0x7F800000#32
  let main_v75 : FVec F S72 .f32 := broadcastInDim S72 ![] bcast_S_S72 main_cst_28
  let main_v76 : IVec S72 1 := cmpf .olt main_v74 main_v75
  let main_c_29 : IVec S_ 1 := constantI S_ 1 1#1
  let main_v77 : IVec S_ 1 := (fun x v => Host.reduce IntOp.andi x v reducesTo_S72_S_d0 h_S_) main_v76 main_c_29
  let main_v78 : IVec S_ 1 := andi main_v73 main_v77
  let main_v79 : FVec F S72 .f32 := Host.absf main_arg16
  let main_cst_30 : FVec F S_ .f32 := constant S_ .f32 0x7F800000#32
  let main_v80 : FVec F S72 .f32 := broadcastInDim S72 ![] bcast_S_S72 main_cst_30
  let main_v81 : IVec S72 1 := cmpf .olt main_v79 main_v80
  let main_c_31 : IVec S_ 1 := constantI S_ 1 1#1
  let main_v82 : IVec S_ 1 := (fun x v => Host.reduce IntOp.andi x v reducesTo_S72_S_d0 h_S_) main_v81 main_c_31
  let main_v83 : IVec S_ 1 := andi main_v78 main_v82
  main_v83

def fn_part3 {F : FTy → Type} [FloatOps F] (main_arg11 : FVec F S72 .f32) (main_arg12 : FVec F S72 .f32) (main_arg13 : FVec F S72x24 .f32) (main_arg14 : FVec F S72x24 .f32) (main_arg15 : FVec F S72 .f32) (main_arg16 : FVec F S72 .f32) (main_v48 : IVec S_ 1) (main_v49 : FVec F S72x24 .f32) (main_v50 : FVec F S72x24 .f32) : IVec S_ 1 :=
  let main_v51 : IVec S72x24 1 := cmpf .olt main_v49 main_v50
  let main_c_19 : IVec S_ 1 := constantI S_ 1 1#1
  let main_v52 : IVec S_ 1 := (fun x v => Host.reduce IntOp.andi x v reducesTo_S72x24_S_d0_1 h_S_) main_v51 main_c_19
  let main_v53 : IVec S_ 1 := andi main_v48 main_v52
  let main_v54 : FVec F S72 .f32 := Host.absf main_arg11
  let main_cst_20 : FVec F S_ .f32 := constant S_ .f32 0x7F800000#32
  let main_v55 : FVec F S72 .f32 := broadcastInDim S72 ![] bcast_S_S72 main_cst_20
  let main_v56 : IVec S72 1 := cmpf .olt main_v54 main_v55
  let main_c_21 : IVec S_ 1 := constantI S_ 1 1#1
  let main_v57 : IVec S_ 1 := (fun x v => Host.reduce IntOp.andi x v reducesTo_S72_S_d0 h_S_) main_v56 main_c_21
  let main_v58 : IVec S_ 1 := andi main_v53 main_v57
  let main_v59 : FVec F S72 .f32 := Host.absf main_arg12
  let main_cst_22 : FVec F S_ .f32 := constant S_ .f32 0x7F800000#32
  let main_v60 : FVec F S72 .f32 := broadcastInDim S72 ![] bcast_S_S72 main_cst_22
  let main_v61 : IVec S72 1 := cmpf .olt main_v59 main_v60
  let main_c_23 : IVec S_ 1 := constantI S_ 1 1#1
  let main_v62 : IVec S_ 1 := (fun x v => Host.reduce IntOp.andi x v reducesTo_S72_S_d0 h_S_) main_v61 main_c_23
  let main_v63 : IVec S_ 1 := andi main_v58 main_v62
  let main_v64 : FVec F S72x24 .f32 := Host.absf main_arg13
  let main_cst_24 : FVec F S_ .f32 := constant S_ .f32 0x7F800000#32
  let main_v65 : FVec F S72x24 .f32 := broadcastInDim S72x24 ![] bcast_S_S72x24 main_cst_24
  let main_v66 : IVec S72x24 1 := cmpf .olt main_v64 main_v65
  let main_c_25 : IVec S_ 1 := constantI S_ 1 1#1
  let main_v67 : IVec S_ 1 := (fun x v => Host.reduce IntOp.andi x v reducesTo_S72x24_S_d0_1 h_S_) main_v66 main_c_25
  fn_part4 (F := F) main_arg14 main_arg15 main_arg16 main_v63 main_v67

def fn_part2 {F : FTy → Type} [FloatOps F] (main_arg7 : FVec F S72 .f32) (main_arg8 : FVec F S72 .f32) (main_arg9 : FVec F S72x24 .f32) (main_arg10 : FVec F S72x24 .f32) (main_arg11 : FVec F S72 .f32) (main_arg12 : FVec F S72 .f32) (main_arg13 : FVec F S72x24 .f32) (main_arg14 : FVec F S72x24 .f32) (main_arg15 : FVec F S72 .f32) (main_arg16 : FVec F S72 .f32) (main_v33 : IVec S_ 1) : IVec S_ 1 :=
  let main_v34 : FVec F S72 .f32 := Host.absf main_arg7
  let main_cst_12 : FVec F S_ .f32 := constant S_ .f32 0x7F800000#32
  let main_v35 : FVec F S72 .f32 := broadcastInDim S72 ![] bcast_S_S72 main_cst_12
  let main_v36 : IVec S72 1 := cmpf .olt main_v34 main_v35
  let main_c_13 : IVec S_ 1 := constantI S_ 1 1#1
  let main_v37 : IVec S_ 1 := (fun x v => Host.reduce IntOp.andi x v reducesTo_S72_S_d0 h_S_) main_v36 main_c_13
  let main_v38 : IVec S_ 1 := andi main_v33 main_v37
  let main_v39 : FVec F S72 .f32 := Host.absf main_arg8
  let main_cst_14 : FVec F S_ .f32 := constant S_ .f32 0x7F800000#32
  let main_v40 : FVec F S72 .f32 := broadcastInDim S72 ![] bcast_S_S72 main_cst_14
  let main_v41 : IVec S72 1 := cmpf .olt main_v39 main_v40
  let main_c_15 : IVec S_ 1 := constantI S_ 1 1#1
  let main_v42 : IVec S_ 1 := (fun x v => Host.reduce IntOp.andi x v reducesTo_S72_S_d0 h_S_) main_v41 main_c_15
  let main_v43 : IVec S_ 1 := andi main_v38 main_v42
  let main_v44 : FVec F S72x24 .f32 := Host.absf main_arg9
  let main_cst_16 : FVec F S_ .f32 := constant S_ .f32 0x7F800000#32
  let main_v45 : FVec F S72x24 .f32 := broadcastInDim S72x24 ![] bcast_S_S72x24 main_cst_16
  let main_v46 : IVec S72x24 1 := cmpf .olt main_v44 main_v45
  let main_c_17 : IVec S_ 1 := constantI S_ 1 1#1
  let main_v47 : IVec S_ 1 := (fun x v => Host.reduce IntOp.andi x v reducesTo_S72x24_S_d0_1 h_S_) main_v46 main_c_17
  let main_v48 : IVec S_ 1 := andi main_v43 main_v47
  let main_v49 : FVec F S72x24 .f32 := Host.absf main_arg10
  let main_cst_18 : FVec F S_ .f32 := constant S_ .f32 0x7F800000#32
  let main_v50 : FVec F S72x24 .f32 := broadcastInDim S72x24 ![] bcast_S_S72x24 main_cst_18
  fn_part3 (F := F) main_arg11 main_arg12 main_arg13 main_arg14 main_arg15 main_arg16 main_v48 main_v49 main_v50

def fn_part1 {F : FTy → Type} [FloatOps F] (main_arg4 : FVec F S480 .f32) (main_arg5 : FVec F S72x24 .f32) (main_arg6 : FVec F S72x24 .f32) (main_arg7 : FVec F S72 .f32) (main_arg8 : FVec F S72 .f32) (main_arg9 : FVec F S72x24 .f32) (main_arg10 : FVec F S72x24 .f32) (main_arg11 : FVec F S72 .f32) (main_arg12 : FVec F S72 .f32) (main_arg13 : FVec F S72x24 .f32) (main_arg14 : FVec F S72x24 .f32) (main_arg15 : FVec F S72 .f32) (main_arg16 : FVec F S72 .f32) (main_v13 : IVec S_ 1) (main_v16 : IVec S480x24 1) : IVec S_ 1 :=
  let main_c_5 : IVec S_ 1 := constantI S_ 1 1#1
  let main_v17 : IVec S_ 1 := (fun x v => Host.reduce IntOp.andi x v reducesTo_S480x24_S_d0_1 h_S_) main_v16 main_c_5
  let main_v18 : IVec S_ 1 := andi main_v13 main_v17
  let main_v19 : FVec F S480 .f32 := Host.absf main_arg4
  let main_cst_6 : FVec F S_ .f32 := constant S_ .f32 0x7F800000#32
  let main_v20 : FVec F S480 .f32 := broadcastInDim S480 ![] bcast_S_S480 main_cst_6
  let main_v21 : IVec S480 1 := cmpf .olt main_v19 main_v20
  let main_c_7 : IVec S_ 1 := constantI S_ 1 1#1
  let main_v22 : IVec S_ 1 := (fun x v => Host.reduce IntOp.andi x v reducesTo_S480_S_d0 h_S_) main_v21 main_c_7
  let main_v23 : IVec S_ 1 := andi main_v18 main_v22
  let main_v24 : FVec F S72x24 .f32 := Host.absf main_arg5
  let main_cst_8 : FVec F S_ .f32 := constant S_ .f32 0x7F800000#32
  let main_v25 : FVec F S72x24 .f32 := broadcastInDim S72x24 ![] bcast_S_S72x24 main_cst_8
  let main_v26 : IVec S72x24 1 := cmpf .olt main_v24 main_v25
  let main_c_9 : IVec S_ 1 := constantI S_ 1 1#1
  let main_v27 : IVec S_ 1 := (fun x v => Host.reduce IntOp.andi x v reducesTo_S72x24_S_d0_1 h_S_) main_v26 main_c_9
  let main_v28 : IVec S_ 1 := andi main_v23 main_v27
  let main_v29 : FVec F S72x24 .f32 := Host.absf main_arg6
  let main_cst_10 : FVec F S_ .f32 := constant S_ .f32 0x7F800000#32
  let main_v30 : FVec F S72x24 .f32 := broadcastInDim S72x24 ![] bcast_S_S72x24 main_cst_10
  let main_v31 : IVec S72x24 1 := cmpf .olt main_v29 main_v30
  let main_c_11 : IVec S_ 1 := constantI S_ 1 1#1
  let main_v32 : IVec S_ 1 := (fun x v => Host.reduce IntOp.andi x v reducesTo_S72x24_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S65536x480 .f32) (main_arg1 : FVec F S24x480 .f32) (main_arg2 : FVec F S24 .f32) (main_arg3 : FVec F S480x24 .f32) (main_arg4 : FVec F S480 .f32) (main_arg5 : FVec F S72x24 .f32) (main_arg6 : FVec F S72x24 .f32) (main_arg7 : FVec F S72 .f32) (main_arg8 : FVec F S72 .f32) (main_arg9 : FVec F S72x24 .f32) (main_arg10 : FVec F S72x24 .f32) (main_arg11 : FVec F S72 .f32) (main_arg12 : FVec F S72 .f32) (main_arg13 : FVec F S72x24 .f32) (main_arg14 : FVec F S72x24 .f32) (main_arg15 : FVec F S72 .f32) (main_arg16 : FVec F S72 .f32) : IVec S_ 1 :=
  let main_v0 : FVec F S65536x480 .f32 := Host.absf main_arg0
  let main_cst : FVec F S_ .f32 := constant S_ .f32 0x7F800000#32
  let main_v1 : FVec F S65536x480 .f32 := broadcastInDim S65536x480 ![] bcast_S_S65536x480 main_cst
  let main_v2 : IVec S65536x480 1 := cmpf .olt main_v0 main_v1
  let main_c : IVec S_ 1 := constantI S_ 1 1#1
  let main_v3 : IVec S_ 1 := (fun x v => Host.reduce IntOp.andi x v reducesTo_S65536x480_S_d0_1 h_S_) main_v2 main_c
  let main_v4 : FVec F S24x480 .f32 := Host.absf main_arg1
  let main_cst_0 : FVec F S_ .f32 := constant S_ .f32 0x7F800000#32
  let main_v5 : FVec F S24x480 .f32 := broadcastInDim S24x480 ![] bcast_S_S24x480 main_cst_0
  let main_v6 : IVec S24x480 1 := cmpf .olt main_v4 main_v5
  let main_c_1 : IVec S_ 1 := constantI S_ 1 1#1
  let main_v7 : IVec S_ 1 := (fun x v => Host.reduce IntOp.andi x v reducesTo_S24x480_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S480x24 .f32 := Host.absf main_arg3
  let main_cst_4 : FVec F S_ .f32 := constant S_ .f32 0x7F800000#32
  let main_v15 : FVec F S480x24 .f32 := broadcastInDim S480x24 ![] bcast_S_S480x24 main_cst_4
  let main_v16 : IVec S480x24 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S65536x480 : Shape := ⟨2, ![65536, 480]⟩
abbrev S24x480 : Shape := ⟨2, ![24, 480]⟩
abbrev S24 : Shape := ⟨1, ![24]⟩
abbrev S480x24 : Shape := ⟨2, ![480, 24]⟩
abbrev S480 : Shape := ⟨1, ![480]⟩
abbrev S72x24 : Shape := ⟨2, ![72, 24]⟩
abbrev S72 : Shape := ⟨1, ![72]⟩
abbrev S1x24 : Shape := ⟨2, ![1, 24]⟩
abbrev S1x480 : Shape := ⟨2, ![1, 480]⟩
abbrev S24x24 : Shape := ⟨2, ![24, 24]⟩
abbrev S_ : Shape := ⟨0, ![]⟩
abbrev S24x384 : Shape := ⟨2, ![24, 384]⟩
abbrev S1 : Shape := ⟨1, ![1]⟩
abbrev S1x384 : Shape := ⟨2, ![1, 384]⟩
abbrev S2048x480 : Shape := ⟨2, ![2048, 480]⟩
abbrev S2048x24 : Shape := ⟨2, ![2048, 24]⟩
abbrev S2048x384 : Shape := ⟨2, ![2048, 384]⟩

abbrev nBuf : Space → Nat
  | .hbm => 147
  | .vmem => 17
  | .smem => 0
  | _ => 0

abbrev hbmTy0_0 (i : Nat) : BufTy := match i % 128 with
  | 0 => ⟨S65536x480, .f32⟩
  | 1 => ⟨S24x480, .f32⟩
  | 2 => ⟨S24, .f32⟩
  | 3 => ⟨S480x24, .f32⟩
  | 4 => ⟨S480, .f32⟩
  | 5 => ⟨S72x24, .f32⟩
  | 6 => ⟨S72x24, .f32⟩
  | 7 => ⟨S72, .f32⟩
  | 8 => ⟨S72, .f32⟩
  | 9 => ⟨S72x24, .f32⟩
  | 10 => ⟨S72x24, .f32⟩
  | 11 => ⟨S72, .f32⟩
  | 12 => ⟨S72, .f32⟩
  | 13 => ⟨S72x24, .f32⟩
  | 14 => ⟨S72x24, .f32⟩
  | 15 => ⟨S72, .f32⟩
  | 16 => ⟨S72, .f32⟩
  | 17 => ⟨S480x24, .f32⟩
  | 18 => ⟨S480x24, .bf16⟩
  | 19 => ⟨S1x24, .f32⟩
  | 20 => ⟨S24x480, .f32⟩
  | 21 => ⟨S24x480, .bf16⟩
  | 22 => ⟨S1x480, .f32⟩
  | 23 => ⟨S24x24, .f32⟩
  | 24 => ⟨S24x24, .f32⟩
  | 25 => ⟨S24x24, .f32⟩
  | 26 => ⟨S24x24, .f32⟩
  | 27 => ⟨S24x24, .f32⟩
  | 28 => ⟨S24x24, .f32⟩
  | 29 => ⟨S24, .f32⟩
  | 30 => ⟨S24, .f32⟩
  | 31 => ⟨S24, .f32⟩
  | 32 => ⟨S24, .f32⟩
  | 33 => ⟨S24, .f32⟩
  | 34 => ⟨S24, .f32⟩
  | 35 => ⟨S_, .f32⟩
  | 36 => ⟨S24x384, .f32⟩
  | 37 => ⟨S_, .i32⟩
  | 38 => ⟨S1, .i32⟩
  | 39 => ⟨S24x384, .f32⟩
  | 40 => ⟨S_, .i32⟩
  | 41 => ⟨S1, .i32⟩
  | 42 => ⟨S24x384, .f32⟩
  | 43 => ⟨S_, .i32⟩
  | 44 => ⟨S1, .i32⟩
  | 45 => ⟨S24x384, .f32⟩
  | 46 => ⟨S24x384, .bf16⟩
  | 47 => ⟨S_, .f32⟩
  | 48 => ⟨S1x384, .f32⟩
  | 49 => ⟨S24, .f32⟩
  | 50 => ⟨S1x24, .f32⟩
  | 51 => ⟨S_, .i32⟩
  | 52 => ⟨S1, .i32⟩
  | 53 => ⟨S1x384, .f32⟩
  | 54 => ⟨S24, .f32⟩
  | 55 => ⟨S1x24, .f32⟩
  | 56 => ⟨S_, .i32⟩
  | 57 => ⟨S1, .i32⟩
  | 58 => ⟨S1x384, .f32⟩
  | 59 => ⟨S1x24, .f32⟩
  | 60 => ⟨S_, .i32⟩
  | 61 => ⟨S1, .i32⟩
  | 62 => ⟨S1x384, .f32⟩
  | 63 => ⟨S1x24, .f32⟩
  | 64 => ⟨S24x24, .f32⟩
  | 65 => ⟨S24x24, .f32⟩
  | 66 => ⟨S24x24, .f32⟩
  | 67 => ⟨S24x24, .f32⟩
  | 68 => ⟨S24x24, .f32⟩
  | 69 => ⟨S24x24, .f32⟩
  | 70 => ⟨S24, .f32⟩
  | 71 => ⟨S24, .f32⟩
  | 72 => ⟨S24, .f32⟩
  | 73 => ⟨S24, .f32⟩
  | 74 => ⟨S24, .f32⟩
  | 75 => ⟨S24, .f32⟩
  | 76 => ⟨S_, .f32⟩
  | 77 => ⟨S24x384, .f32⟩
  | 78 => ⟨S_, .i32⟩
  | 79 => ⟨S1, .i32⟩
  | 80 => ⟨S24x384, .f32⟩
  | 81 => ⟨S_, .i32⟩
  | 82 => ⟨S1, .i32⟩
  | 83 => ⟨S24x384, .f32⟩
  | 84 => ⟨S_, .i32⟩
  | 85 => ⟨S1, .i32⟩
  | 86 => ⟨S24x384, .f32⟩
  | 87 => ⟨S24x384, .bf16⟩
  | 88 => ⟨S_, .f32⟩
  | 89 => ⟨S1x384, .f32⟩
  | 90 => ⟨S24, .f32⟩
  | 91 => ⟨S1x24, .f32⟩
  | 92 => ⟨S_, .i32⟩
  | 93 => ⟨S1, .i32⟩
  | 94 => ⟨S1x384, .f32⟩
  | 95 => ⟨S24, .f32⟩
  | 96 => ⟨S1x24, .f32⟩
  | 97 => ⟨S_, .i32⟩
  | 98 => ⟨S1, .i32⟩
  | 99 => ⟨S1x384, .f32⟩
  | 100 => ⟨S1x24, .f32⟩
  | 101 => ⟨S_, .i32⟩
  | 102 => ⟨S1, .i32⟩
  | 103 => ⟨S1x384, .f32⟩
  | 104 => ⟨S1x24, .f32⟩
  | 105 => ⟨S24x24, .f32⟩
  | 106 => ⟨S24x24, .f32⟩
  | 107 => ⟨S24x24, .f32⟩
  | 108 => ⟨S24x24, .f32⟩
  | 109 => ⟨S24x24, .f32⟩
  | 110 => ⟨S24x24, .f32⟩
  | 111 => ⟨S24, .f32⟩
  | 112 => ⟨S24, .f32⟩
  | 113 => ⟨S24, .f32⟩
  | 114 => ⟨S24, .f32⟩
  | 115 => ⟨S24, .f32⟩
  | 116 => ⟨S24, .f32⟩
  | 117 => ⟨S_, .f32⟩
  | 118 => ⟨S24x384, .f32⟩
  | 119 => ⟨S_, .i32⟩
  | 120 => ⟨S1, .i32⟩
  | 121 => ⟨S24x384, .f32⟩
  | 122 => ⟨S_, .i32⟩
  | 123 => ⟨S1, .i32⟩
  | 124 => ⟨S24x384, .f32⟩
  | 125 => ⟨S_, .i32⟩
  | 126 => ⟨S1, .i32⟩
  | 127 => ⟨S24x384, .f32⟩
  | _ => ⟨S65536x480, .f32⟩

abbrev hbmTy0_1 (i : Nat) : BufTy := match i % 128 with
  | 0 => ⟨S24x384, .bf16⟩
  | 1 => ⟨S_, .f32⟩
  | 2 => ⟨S1x384, .f32⟩
  | 3 => ⟨S24, .f32⟩
  | 4 => ⟨S1x24, .f32⟩
  | 5 => ⟨S_, .i32⟩
  | 6 => ⟨S1, .i32⟩
  | 7 => ⟨S1x384, .f32⟩
  | 8 => ⟨S24, .f32⟩
  | 9 => ⟨S1x24, .f32⟩
  | 10 => ⟨S_, .i32⟩
  | 11 => ⟨S1, .i32⟩
  | 12 => ⟨S1x384, .f32⟩
  | 13 => ⟨S1x24, .f32⟩
  | 14 => ⟨S_, .i32⟩
  | 15 => ⟨S1, .i32⟩
  | 16 => ⟨S1x384, .f32⟩
  | 17 => ⟨S1x24, .f32⟩
  | 18 => ⟨S65536x480, .f32⟩
  | _ => ⟨S65536x480, .f32⟩

abbrev hbmTy (i : Nat) : BufTy := match i / 128 with
  | 0 => hbmTy0_0 i
  | 1 => hbmTy0_1 i
  | _ => ⟨S65536x480, .f32⟩

abbrev bufTy : (tb : Table) → Fin (tcTables nBuf tb) → BufTy
  | .hbm, ⟨i, _⟩ => hbmTy i
  | .local _ .vmem, ⟨0, _⟩ => ⟨S2048x480, .f32⟩
  | .local _ .vmem, ⟨1, _⟩ => ⟨S2048x480, .f32⟩
  | .local _ .vmem, ⟨2, _⟩ => ⟨S480x24, .bf16⟩
  | .local _ .vmem, ⟨3, _⟩ => ⟨S1x24, .f32⟩
  | .local _ .vmem, ⟨4, _⟩ => ⟨S24x480, .bf16⟩
  | .local _ .vmem, ⟨5, _⟩ => ⟨S1x480, .f32⟩
  | .local _ .vmem, ⟨6, _⟩ => ⟨S24x384, .bf16⟩
  | .local _ .vmem, ⟨7, _⟩ => ⟨S1x384, .f32⟩
  | .local _ .vmem, ⟨8, _⟩ => ⟨S1x24, .f32⟩
  | .local _ .vmem, ⟨9, _⟩ => ⟨S24x384, .bf16⟩
  | .local _ .vmem, ⟨10, _⟩ => ⟨S1x384, .f32⟩
  | .local _ .vmem, ⟨11, _⟩ => ⟨S1x24, .f32⟩
  | .local _ .vmem, ⟨12, _⟩ => ⟨S24x384, .bf16⟩
  | .local _ .vmem, ⟨13, _⟩ => ⟨S1x384, .f32⟩
  | .local _ .vmem, ⟨14, _⟩ => ⟨S1x24, .f32⟩
  | .local _ .vmem, ⟨15, _⟩ => ⟨S2048x480, .f32⟩
  | .local _ .vmem, ⟨16, _⟩ => ⟨S2048x480, .f32⟩
  | _, _ => ⟨S65536x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_0 : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_c_7 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_c_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_19 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_20 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S480x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S24x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x24 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x480 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S24x480_S480x24_1_0 : S24x480.Transposes [1, 0] S480x24
  bitsLt_bf16_f32 : FTy.bits .bf16 < FTy.bits .f32
  shapeCasts_S24_S1x24 : S24.ShapeCasts S1x24
  transposes_S480x24_S24x480_1_0 : S480x24.Transposes [1, 0] S24x480
  shapeCasts_S480_S1x480 : S480.ShapeCasts S1x480
  slices_S72x24_S24x24_0_0 : S72x24.Slices ![0, 0] S24x24
  slices_S72x24_S24x24_24_0 : S72x24.Slices ![24, 0] S24x24
  slices_S72x24_S24x24_48_0 : S72x24.Slices ![48, 0] S24x24
  transposes_S24x24_S24x24_1_0 : S24x24.Transposes [1, 0] S24x24
  slices_S72_S24_0 : S72.Slices ![0] S24
  slices_S72_S24_24 : S72.Slices ![24] S24
  slices_S72_S24_48 : S72.Slices ![48] S24
  bcast_S_S24x384 : S_.BroadcastsInDim S24x384 (![] : Fin 0 → Fin S24x384.rank)
  bcast_S_S1 : S_.BroadcastsInDim S1 (![] : Fin 0 → Fin S1.rank)
  bcast_S_S1x384 : S_.BroadcastsInDim S1x384 (![] : Fin 0 → Fin S1x384.rank)
  inb_S2048x480_S2048x480_0_0 : ∀ a, (![0, 0] : Fin 2 → Nat) a + S2048x480.size a ≤ S2048x480.size a
  h_S2048x480 : 0 < S2048x480.numel
  inb_S480x24_S480x24_0_0 : ∀ a, (![0, 0] : Fin 2 → Nat) a + S480x24.size a ≤ S480x24.size a
  h_S480x24 : 0 < S480x24.numel
  shapeCasts_S480x24_S480x24 : S480x24.ShapeCasts S480x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S2048x24 : S1x24.Broadcasts S2048x24
  inb_S24x384_S24x384_0_0 : ∀ a, (![0, 0] : Fin 2 → Nat) a + S24x384.size a ≤ S24x384.size a
  h_S24x384 : 0 < S24x384.numel
  shapeCasts_S24x384_S24x384 : S24x384.ShapeCasts S24x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x24 : S2048x384.Slices ![0, 0] S2048x24
  slices_S2048x384_o0_128_S2048x24 : S2048x384.Slices ![0, 128] S2048x24
  slices_S2048x384_o0_256_S2048x24 : S2048x384.Slices ![0, 256] S2048x24
  inb_S24x480_S24x480_0_0 : ∀ a, (![0, 0] : Fin 2 → Nat) a + S24x480.size a ≤ S24x480.size a
  h_S24x480 : 0 < S24x480.numel
  shapeCasts_S24x480_S24x480 : S24x480.ShapeCasts S24x480
  inb_S1x480_S1x480_0_0 : ∀ a, (![0, 0] : Fin 2 → Nat) a + S1x480.size a ≤ S1x480.size a
  h_S1x480 : 0 < S1x480.numel
  shapeCasts_S1x480_S1x480 : S1x480.ShapeCasts S1x480
  broadcasts_S1x480_S2048x480 : S1x480.Broadcasts S2048x480
  scatter_S24x384_S1_S24x24_01_n_1_0_wf : ScatterDims.WF S24x384 S1 S24x24 [0, 1] [] [1] 0
  scatter_S1x384_S1_S1x24_01_n_1_0_wf : ScatterDims.WF S1x384 S1 S1x24 [0, 1] [] [1] 0
  dot_S2048x480_S480x24_S2048x24_1_0_0_1_n_n_wf : DotDims.WF S2048x480 S480x24 S2048x24 [1] [0] [0] [1] [] []
  dot_S2048x24_S24x384_S2048x384_1_0_0_1_n_n_wf : DotDims.WF S2048x24 S24x384 S2048x384 [1] [0] [0] [1] [] []
  dot_S2048x24_S24x480_S2048x480_1_0_0_1_n_n_wf : DotDims.WF S2048x24 S24x480 S2048x480 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x480.size a ≤ S65536x480.size a
  hwx0_0 : ∀ i : grid0.Coords, EltTy.bits .f32 = 32 ∨ (Rect.block (s := S65536x480) S2048x480.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S480x24.size a ≤ S480x24.size a
  hwx0_1 : ∀ i : grid0.Coords, EltTy.bits .bf16 = 32 ∨ (Rect.block (s := S480x24) S480x24.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24.size a ≤ S1x24.size a
  hwx0_2 : ∀ i : grid0.Coords, EltTy.bits .f32 = 32 ∨ (Rect.block (s := S1x24) S1x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x480.size a ≤ S24x480.size a
  hwx0_3 : ∀ i : grid0.Coords, EltTy.bits .bf16 = 32 ∨ (Rect.block (s := S24x480) S24x480.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x480.size a ≤ S1x480.size a
  hwx0_4 : ∀ i : grid0.Coords, EltTy.bits .f32 = 32 ∨ (Rect.block (s := S1x480) S1x480.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x384.size a ≤ S24x384.size a
  hwx0_5 : ∀ i : grid0.Coords, EltTy.bits .bf16 = 32 ∨ (Rect.block (s := S24x384) S24x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x24.size a ≤ S1x24.size a
  hwx0_7 : ∀ i : grid0.Coords, EltTy.bits .f32 = 32 ∨ (Rect.block (s := S1x24) S1x24.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24x384.size a ≤ S24x384.size a
  hwx0_8 : ∀ i : grid0.Coords, EltTy.bits .bf16 = 32 ∨ (Rect.block (s := S24x384) S24x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x24.size a ≤ S1x24.size a
  hwx0_10 : ∀ i : grid0.Coords, EltTy.bits .f32 = 32 ∨ (Rect.block (s := S1x24) S1x24.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S24x384.size a ≤ S24x384.size a
  hwx0_11 : ∀ i : grid0.Coords, EltTy.bits .bf16 = 32 ∨ (Rect.block (s := S24x384) S24x384.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x384.size a ≤ S1x384.size a
  hwx0_12 : ∀ i : grid0.Coords, EltTy.bits .f32 = 32 ∨ (Rect.block (s := S1x384) S1x384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x24.size a ≤ S1x24.size a
  hwx0_13 : ∀ i : grid0.Coords, EltTy.bits .f32 = 32 ∨ (Rect.block (s := S1x24) S1x24.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x480.size a ≤ S65536x480.size a
  hwx0_14 : ∀ i : grid0.Coords, EltTy.bits .f32 = 32 ∨ (Rect.block (s := S65536x480) S2048x480.size (cc0_transform_14 i) (hinb0_14 i)).WholeWords (EltTy.packing .f32)

variable [Facts₀]

def scatter_S24x384_S1_S24x24_01_n_1_0 : ScatterDims S24x384 S1 S24x24 where
  updateWindowDims := [0, 1]
  insertedWindowDims := []
  scatterDimsToOperandDims := [1]
  indexVectorDim := 0
  wf := scatter_S24x384_S1_S24x24_01_n_1_0_wf
def scatter_S1x384_S1_S1x24_01_n_1_0 : ScatterDims S1x384 S1 S1x24 where
  updateWindowDims := [0, 1]
  insertedWindowDims := []
  scatterDimsToOperandDims := [1]
  indexVectorDim := 0
  wf := scatter_S1x384_S1_S1x24_01_n_1_0_wf
def dot_S2048x480_S480x24_S2048x24_1_0_0_1_n_n : DotDims S2048x480 S480x24 S2048x24 where
  lhsContracting := [1]
  rhsContracting := [0]
  lhsNonContracting := [0]
  rhsNonContracting := [1]
  lhsBatch := []
  rhsBatch := []
  wf := dot_S2048x480_S480x24_S2048x24_1_0_0_1_n_n_wf
def dot_S2048x24_S24x384_S2048x384_1_0_0_1_n_n : DotDims S2048x24 S24x384 S2048x384 where
  lhsContracting := [1]
  rhsContracting := [0]
  lhsNonContracting := [0]
  rhsNonContracting := [1]
  lhsBatch := []
  rhsBatch := []
  wf := dot_S2048x24_S24x384_S2048x384_1_0_0_1_n_n_wf
def dot_S2048x24_S24x480_S2048x480_1_0_0_1_n_n : DotDims S2048x24 S24x480 S2048x480 where
  lhsContracting := [1]
  rhsContracting := [0]
  lhsNonContracting := [0]
  rhsNonContracting := [1]
  lhsBatch := []
  rhsBatch := []
  wf := dot_S2048x24_S24x480_S2048x480_1_0_0_1_n_n_wf

abbrev win0_0 : Pipeline.Window sig grid0 :=
  Pipeline.Window.ofSpec (Memref.whole main_arg0) S2048x480.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S24x480.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x480.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S24x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v58) S24x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v70) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v71) S1x24.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v91) S24x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v103) S1x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v104) S1x24.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v105) S2048x480.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x480 : Shape := ⟨2, ![65536, 480]⟩
abbrev S24x480 : Shape := ⟨2, ![24, 480]⟩
abbrev S24 : Shape := ⟨1, ![24]⟩
abbrev S480x24 : Shape := ⟨2, ![480, 24]⟩
abbrev S480 : Shape := ⟨1, ![480]⟩
abbrev S72x24 : Shape := ⟨2, ![72, 24]⟩
abbrev S72 : Shape := ⟨1, ![72]⟩
abbrev S65536x24 : Shape := ⟨2, ![65536, 24]⟩
abbrev S1x24 : Shape := ⟨2, ![1, 24]⟩
abbrev S24x72 : Shape := ⟨2, ![24, 72]⟩
abbrev S65536x72 : Shape := ⟨2, ![65536, 72]⟩
abbrev S1x72 : Shape := ⟨2, ![1, 72]⟩
abbrev S_ : Shape := ⟨0, ![]⟩
abbrev S1x480 : Shape := ⟨2, ![1, 480]⟩

abbrev nBuf : Space → Nat
  | .hbm => 162
  | .vmem => 0
  | .smem => 0
  | _ => 0

abbrev hbmTy0_0 (i : Nat) : BufTy := match i % 128 with
  | 0 => ⟨S65536x480, .f32⟩
  | 1 => ⟨S24x480, .f32⟩
  | 2 => ⟨S24, .f32⟩
  | 3 => ⟨S480x24, .f32⟩
  | 4 => ⟨S480, .f32⟩
  | 5 => ⟨S72x24, .f32⟩
  | 6 => ⟨S72x24, .f32⟩
  | 7 => ⟨S72, .f32⟩
  | 8 => ⟨S72, .f32⟩
  | 9 => ⟨S72x24, .f32⟩
  | 10 => ⟨S72x24, .f32⟩
  | 11 => ⟨S72, .f32⟩
  | 12 => ⟨S72, .f32⟩
  | 13 => ⟨S72x24, .f32⟩
  | 14 => ⟨S72x24, .f32⟩
  | 15 => ⟨S72, .f32⟩
  | 16 => ⟨S72, .f32⟩
  | 17 => ⟨S480x24, .f32⟩
  | 18 => ⟨S65536x24, .f32⟩
  | 19 => ⟨S1x24, .f32⟩
  | 20 => ⟨S65536x24, .f32⟩
  | 21 => ⟨S65536x24, .f32⟩
  | 22 => ⟨S24x72, .f32⟩
  | 23 => ⟨S65536x72, .f32⟩
  | 24 => ⟨S1x72, .f32⟩
  | 25 => ⟨S65536x72, .f32⟩
  | 26 => ⟨S65536x72, .f32⟩
  | 27 => ⟨S65536x24, .f32⟩
  | 28 => ⟨S65536x24, .f32⟩
  | 29 => ⟨S65536x24, .f32⟩
  | 30 => ⟨S24, .f32⟩
  | 31 => ⟨S24, .f32⟩
  | 32 => ⟨S24, .f32⟩
  | 33 => ⟨S1x24, .f32⟩
  | 34 => ⟨S65536x24, .f32⟩
  | 35 => ⟨S65536x24, .f32⟩
  | 36 => ⟨S65536x24, .f32⟩
  | 37 => ⟨S65536x24, .f32⟩
  | 38 => ⟨S_, .f32⟩
  | 39 => ⟨S65536x24, .f32⟩
  | 40 => ⟨S65536x24, .f32⟩
  | 41 => ⟨S_, .f32⟩
  | 42 => ⟨S65536x24, .f32⟩
  | 43 => ⟨S65536x24, .f32⟩
  | 44 => ⟨S1x24, .f32⟩
  | 45 => ⟨S65536x24, .f32⟩
  | 46 => ⟨S65536x24, .f32⟩
  | 47 => ⟨S65536x24, .f32⟩
  | 48 => ⟨S65536x24, .f32⟩
  | 49 => ⟨S_, .f32⟩
  | 50 => ⟨S65536x24, .f32⟩
  | 51 => ⟨S65536x24, .f32⟩
  | 52 => ⟨S_, .f32⟩
  | 53 => ⟨S65536x24, .f32⟩
  | 54 => ⟨S65536x24, .f32⟩
  | 55 => ⟨S1x24, .f32⟩
  | 56 => ⟨S65536x24, .f32⟩
  | 57 => ⟨S65536x24, .f32⟩
  | 58 => ⟨S65536x24, .f32⟩
  | 59 => ⟨S65536x24, .f32⟩
  | 60 => ⟨S_, .f32⟩
  | 61 => ⟨S65536x24, .f32⟩
  | 62 => ⟨S65536x24, .f32⟩
  | 63 => ⟨S65536x24, .f32⟩
  | 64 => ⟨S24x72, .f32⟩
  | 65 => ⟨S65536x72, .f32⟩
  | 66 => ⟨S1x72, .f32⟩
  | 67 => ⟨S65536x72, .f32⟩
  | 68 => ⟨S65536x72, .f32⟩
  | 69 => ⟨S65536x24, .f32⟩
  | 70 => ⟨S65536x24, .f32⟩
  | 71 => ⟨S65536x24, .f32⟩
  | 72 => ⟨S24, .f32⟩
  | 73 => ⟨S24, .f32⟩
  | 74 => ⟨S24, .f32⟩
  | 75 => ⟨S1x24, .f32⟩
  | 76 => ⟨S65536x24, .f32⟩
  | 77 => ⟨S65536x24, .f32⟩
  | 78 => ⟨S65536x24, .f32⟩
  | 79 => ⟨S65536x24, .f32⟩
  | 80 => ⟨S_, .f32⟩
  | 81 => ⟨S65536x24, .f32⟩
  | 82 => ⟨S65536x24, .f32⟩
  | 83 => ⟨S_, .f32⟩
  | 84 => ⟨S65536x24, .f32⟩
  | 85 => ⟨S65536x24, .f32⟩
  | 86 => ⟨S1x24, .f32⟩
  | 87 => ⟨S65536x24, .f32⟩
  | 88 => ⟨S65536x24, .f32⟩
  | 89 => ⟨S65536x24, .f32⟩
  | 90 => ⟨S65536x24, .f32⟩
  | 91 => ⟨S_, .f32⟩
  | 92 => ⟨S65536x24, .f32⟩
  | 93 => ⟨S65536x24, .f32⟩
  | 94 => ⟨S_, .f32⟩
  | 95 => ⟨S65536x24, .f32⟩
  | 96 => ⟨S65536x24, .f32⟩
  | 97 => ⟨S1x24, .f32⟩
  | 98 => ⟨S65536x24, .f32⟩
  | 99 => ⟨S65536x24, .f32⟩
  | 100 => ⟨S65536x24, .f32⟩
  | 101 => ⟨S65536x24, .f32⟩
  | 102 => ⟨S_, .f32⟩
  | 103 => ⟨S65536x24, .f32⟩
  | 104 => ⟨S65536x24, .f32⟩
  | 105 => ⟨S65536x24, .f32⟩
  | 106 => ⟨S24x72, .f32⟩
  | 107 => ⟨S65536x72, .f32⟩
  | 108 => ⟨S1x72, .f32⟩
  | 109 => ⟨S65536x72, .f32⟩
  | 110 => ⟨S65536x72, .f32⟩
  | 111 => ⟨S65536x24, .f32⟩
  | 112 => ⟨S65536x24, .f32⟩
  | 113 => ⟨S65536x24, .f32⟩
  | 114 => ⟨S24, .f32⟩
  | 115 => ⟨S24, .f32⟩
  | 116 => ⟨S24, .f32⟩
  | 117 => ⟨S1x24, .f32⟩
  | 118 => ⟨S65536x24, .f32⟩
  | 119 => ⟨S65536x24, .f32⟩
  | 120 => ⟨S65536x24, .f32⟩
  | 121 => ⟨S65536x24, .f32⟩
  | 122 => ⟨S_, .f32⟩
  | 123 => ⟨S65536x24, .f32⟩
  | 124 => ⟨S65536x24, .f32⟩
  | 125 => ⟨S_, .f32⟩
  | 126 => ⟨S65536x24, .f32⟩
  | 127 => ⟨S65536x24, .f32⟩
  | _ => ⟨S65536x480, .f32⟩

abbrev hbmTy0_1 (i : Nat) : BufTy := match i % 128 with
  | 0 => ⟨S1x24, .f32⟩
  | 1 => ⟨S65536x24, .f32⟩
  | 2 => ⟨S65536x24, .f32⟩
  | 3 => ⟨S65536x24, .f32⟩
  | 4 => ⟨S65536x24, .f32⟩
  | 5 => ⟨S_, .f32⟩
  | 6 => ⟨S65536x24, .f32⟩
  | 7 => ⟨S65536x24, .f32⟩
  | 8 => ⟨S_, .f32⟩
  | 9 => ⟨S65536x24, .f32⟩
  | 10 => ⟨S65536x24, .f32⟩
  | 11 => ⟨S1x24, .f32⟩
  | 12 => ⟨S65536x24, .f32⟩
  | 13 => ⟨S65536x24, .f32⟩
  | 14 => ⟨S65536x24, .f32⟩
  | 15 => ⟨S65536x24, .f32⟩
  | 16 => ⟨S_, .f32⟩
  | 17 => ⟨S65536x24, .f32⟩
  | 18 => ⟨S65536x24, .f32⟩
  | 19 => ⟨S65536x24, .f32⟩
  | 20 => ⟨S24x480, .f32⟩
  | 21 => ⟨S65536x480, .f32⟩
  | 22 => ⟨S1x480, .f32⟩
  | 23 => ⟨S65536x480, .f32⟩
  | 24 => ⟨S65536x480, .f32⟩
  | 25 => ⟨S65536x480, .f32⟩
  | 26 => ⟨S65536x480, .f32⟩
  | 27 => ⟨S_, .f32⟩
  | 28 => ⟨S65536x480, .f32⟩
  | 29 => ⟨S65536x480, .f32⟩
  | 30 => ⟨S_, .f32⟩
  | 31 => ⟨S65536x480, .f32⟩
  | 32 => ⟨S65536x480, .f32⟩
  | 33 => ⟨S65536x480, .f32⟩
  | _ => ⟨S65536x480, .f32⟩

abbrev hbmTy (i : Nat) : BufTy := match i / 128 with
  | 0 => hbmTy0_0 i
  | 1 => hbmTy0_1 i
  | _ => ⟨S65536x480, .f32⟩

abbrev bufTy : (tb : Table) → Fin (tcTables nBuf tb) → BufTy
  | .hbm, ⟨i, _⟩ => hbmTy i
  | _, _ => ⟨S65536x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_4 : Ref sig .tc := ⟨.hbm, 80, rfl⟩
abbrev main_v58 : Ref sig .tc := ⟨.hbm, 81, rfl⟩
abbrev main_v59 : Ref sig .tc := ⟨.hbm, 82, rfl⟩
abbrev main_cst_5 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_6 : Ref sig .tc := ⟨.hbm, 91, rfl⟩
abbrev main_v67 : Ref sig .tc := ⟨.hbm, 92, rfl⟩
abbrev main_v68 : Ref sig .tc := ⟨.hbm, 93, rfl⟩
abbrev main_cst_7 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_8 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_9 : Ref sig .tc := ⟨.hbm, 122, rfl⟩
abbrev main_v95 : Ref sig .tc := ⟨.hbm, 123, rfl⟩
abbrev main_v96 : Ref sig .tc := ⟨.hbm, 124, rfl⟩
abbrev main_cst_10 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_11 : Ref sig .tc := ⟨.hbm, 133, rfl⟩
abbrev main_v104 : Ref sig .tc := ⟨.hbm, 134, rfl⟩
abbrev main_v105 : Ref sig .tc := ⟨.hbm, 135, rfl⟩
abbrev main_cst_12 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_13 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_14 : Ref sig .tc := ⟨.hbm, 155, rfl⟩
abbrev main_v123 : Ref sig .tc := ⟨.hbm, 156, rfl⟩
abbrev main_v124 : Ref sig .tc := ⟨.hbm, 157, rfl⟩
abbrev main_cst_15 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩

abbrev nD : Nat := 1
abbrev τ : Topo := Topo.v7x

variable {F : FTy → Type} [FloatOps F]

class Facts₀ : Prop where
  transposes_S24x480_S480x24_1_0 : S24x480.Transposes [1, 0] S480x24
  bcast_S24_S1x24_1 : S24.BroadcastsInDim S1x24 (![1] : Fin 1 → Fin S1x24.rank)
  bcast_S1x24_S65536x24_0_1 : S1x24.BroadcastsInDim S65536x24 (![0, 1] : Fin 2 → Fin S65536x24.rank)
  transposes_S72x24_S24x72_1_0 : S72x24.Transposes [1, 0] S24x72
  bcast_S72_S1x72_1 : S72.BroadcastsInDim S1x72 (![1] : Fin 1 → Fin S1x72.rank)
  bcast_S1x72_S65536x72_0_1 : S1x72.BroadcastsInDim S65536x72 (![0, 1] : Fin 2 → Fin S65536x72.rank)
  slices_S65536x72_S65536x24_0_0 : S65536x72.Slices ![0, 0] S65536x24
  slices_S65536x72_S65536x24_0_24 : S65536x72.Slices ![0, 24] S65536x24
  slices_S65536x72_S65536x24_0_48 : S65536x72.Slices ![0, 48] S65536x24
  slices_S72_S24_0 : S72.Slices ![0] S24
  slices_S72_S24_24 : S72.Slices ![24] S24
  slices_S72_S24_48 : S72.Slices ![48] S24
  bcast_S_S65536x24 : S_.BroadcastsInDim S65536x24 (![] : Fin 0 → Fin S65536x24.rank)
  transposes_S480x24_S24x480_1_0 : S480x24.Transposes [1, 0] S24x480
  bcast_S480_S1x480_1 : S480.BroadcastsInDim S1x480 (![1] : Fin 1 → Fin S1x480.rank)
  bcast_S1x480_S65536x480_0_1 : S1x480.BroadcastsInDim S65536x480 (![0, 1] : Fin 2 → Fin S65536x480.rank)
  bcast_S_S65536x480 : S_.BroadcastsInDim S65536x480 (![] : Fin 0 → Fin S65536x480.rank)
  dot_S65536x480_S480x24_S65536x24_1_0_0_1_n_n_wf : DotDims.WF S65536x480 S480x24 S65536x24 [1] [0] [0] [1] [] []
  dot_S65536x24_S24x72_S65536x72_1_0_0_1_n_n_wf : DotDims.WF S65536x24 S24x72 S65536x72 [1] [0] [0] [1] [] []
  dot_S65536x24_S24x480_S65536x480_1_0_0_1_n_n_wf : DotDims.WF S65536x24 S24x480 S65536x480 [1] [0] [0] [1] [] []

variable [Facts₀]

def dot_S65536x480_S480x24_S65536x24_1_0_0_1_n_n : DotDims S65536x480 S480x24 S65536x24 where
  lhsContracting := [1]
  rhsContracting := [0]
  lhsNonContracting := [0]
  rhsNonContracting := [1]
  lhsBatch := []
  rhsBatch := []
  wf := dot_S65536x480_S480x24_S65536x24_1_0_0_1_n_n_wf
def dot_S65536x24_S24x72_S65536x72_1_0_0_1_n_n : DotDims S65536x24 S24x72 S65536x72 where
  lhsContracting := [1]
  rhsContracting := [0]
  lhsNonContracting := [0]
  rhsNonContracting := [1]
  lhsBatch := []
  rhsBatch := []
  wf := dot_S65536x24_S24x72_S65536x72_1_0_0_1_n_n_wf
def dot_S65536x24_S24x480_S65536x480_1_0_0_1_n_n : DotDims S65536x24 S24x480 S65536x480 where
  lhsContracting := [1]
  rhsContracting := [0]
  lhsNonContracting := [0]
  rhsNonContracting := [1]
  lhsBatch := []
  rhsBatch := []
  wf := dot_S65536x24_S24x480_S65536x480_1_0_0_1_n_n_wf

class Facts : Prop extends Facts₀ where

variable [Facts]
-- ==== Proof.GruSpec.lean ====
/-
  The function both programs compute, one batch row at a time.

  A row x of 480 features goes through an affine map to 24 features, three gated recurrent cells whose
  previous state is zero, and an affine map back to 480 features whose logistic gates the row itself.
  With a zero state the recurrent weight never enters a cell: its reset gate r and update gate z are the
  logistic of an affine map of the input plus the hidden bias, its candidate n is the hyperbolic tangent of
  a third affine map plus r times the hidden bias, and the new state is (1 - z) * n.

  The three gates' parameters are stacked in one [72, .] array, gate g in rows 24 g .. 24 g + 23.
  Everything is stated on the extended reals; the literal 1 of (1 - z) is kept as the f32 word both
  programs print.
-/
import Idealize.ShloMosaic.PureOps.Ideal
import Idealize.ShloMosaic.Lib.ValueIdx

open scoped BigOperators

noncomputable section

namespace Cert.Gru

open Idealize.ShloMosaic Idealize.ShloMosaic.ValueIdx

/-- The f32 word of 1.0. -/
abbrev oneW : EReal := Ideal.ofBits .f32 0x3F800000#32

/-- Entry j of x Wᵀ + b for a weight stored [N, K]. -/
def affine {K N : ℕ} (x : Fin K → EReal) (W : Fin N → Fin K → EReal) (b : Fin N → EReal) (j : Fin N) : EReal :=
  (∑ k : Fin K, x k * W j k) + b j

/-- Row o + j of a stacked gate parameter: entry j of the gate whose rows start at o. -/
def gate (o : ℕ) (ho : o + 24 ≤ 72) (j : Fin 24) : Fin 72 := ⟨o + j.val, by have := j.isLt; omega⟩

/-- One cell from the zero state, entry j: (1 - z) * n with
    r = σ(a₀ + h₀), z = σ(a₂₄ + h₂₄), n = tanh(a₄₈ + r * h₄₈), a = x Wᵀ + bi, h = bh. -/
def cell (inp : Fin 24 → EReal) (W : Fin 72 → Fin 24 → EReal) (bi bh : Fin 72 → EReal) (j : Fin 24) : EReal :=
  (oneW - Ideal.logistic (affine inp W bi (gate 24 (by omega) j) + bh (gate 24 (by omega) j)))
    * Ideal.tanh (affine inp W bi (gate 48 (by omega) j)
        + Ideal.logistic (affine inp W bi (gate 0 (by omega) j) + bh (gate 0 (by omega) j)) * bh (gate 48 (by omega) j))

/-- The gated output of one row, feature f. -/
def outRow (x : Fin 480 → EReal) (Win : Fin 24 → Fin 480 → EReal) (bin : Fin 24 → EReal)
    (Wout : Fin 480 → Fin 24 → EReal) (bout : Fin 480 → EReal)
    (W1 : Fin 72 → Fin 24 → EReal) (bi1 bh1 : Fin 72 → EReal)
    (W2 : Fin 72 → Fin 24 → EReal) (bi2 bh2 : Fin 72 → EReal)
    (W3 : Fin 72 → Fin 24 → EReal) (bi3 bh3 : Fin 72 → EReal) (f : Fin 480) : EReal :=
  x f * Ideal.logistic
    (affine (cell (cell (cell (affine x Win bin) W1 bi1 bh1) W2 bi2 bh2) W3 bi3 bh3) Wout bout f)

/-- A rank-2 array of extended reals, and a rank-1 one. -/
abbrev A2 (a b : ℕ) : Type := (⟨2, ![a, b]⟩ : Shape).Idx → EReal
abbrev A1 (a : ℕ) : Type := (⟨1, ![a]⟩ : Shape).Idx → EReal

/-- A rank-2 array by its two coordinates, a rank-1 array by its one. -/
def mat {a b : ℕ} (X : A2 a b) : Fin a → Fin b → EReal := fun p q => X (ix2 p q)
def vec {a : ℕ} (v : A1 a) : Fin a → EReal := fun p => v (ix1 p)

/-- The whole result: row i₀ of the batch through outRow, read at feature i₁. -/
def G (X : A2 65536 480) (Win : A2 24 480) (bin : A1 24) (Wout : A2 480 24) (bout : A1 480)
    (W1 : A2 72 24) (bi1 bh1 : A1 72) (W2 : A2 72 24) (bi2 bh2 : A1 72) (W3 : A2 72 24) (bi3 bh3 : A1 72) :
    A2 65536 480 :=
  fun i => outRow (mat X (i 0)) (mat Win) (vec bin) (mat Wout) (vec bout)
    (mat W1) (vec bi1) (vec bh1) (mat W2) (vec bi2) (vec bh2) (mat W3) (vec bi3) (vec bh3) (i 1)

theorem G_apply (X : A2 65536 480) (Win : A2 24 480) (bin : A1 24) (Wout : A2 480 24) (bout : A1 480)
    (W1 : A2 72 24) (bi1 bh1 : A1 72) (W2 : A2 72 24) (bi2 bh2 : A1 72) (W3 : A2 72 24) (bi3 bh3 : A1 72)
    (b : Fin 65536) (f : Fin 480) :
    G X Win bin Wout bout W1 bi1 bh1 W2 bi2 bh2 W3 bi3 bh3 (ix2 b f)
      = outRow (mat X b) (mat Win) (vec bin) (mat Wout) (vec bout)
          (mat W1) (vec bi1) (vec bh1) (mat W2) (vec bi2) (vec bh2) (mat W3) (vec bi3) (vec bh3) f := rfl

end Cert.Gru

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KernelRow.lean ====
/-
  What the kernel body stores, read at one element.

  The body is a chain of four kinds of stage on a block of 2048 rows: an affine map into 24 features
  (a product with the stored [480, 24] weight plus a one-row bias), a gate product into 384 lanes
  (a product with a [24, 384] weight plus a one-row bias, the three gates' 24 columns sitting at lanes
  0, 128 and 256), the gate arithmetic on three 24-lane slices of that product
  ((1 - σ z) * tanh (n + σ r * h)), and the projection back to 480 features whose logistic multiplies
  the input block.  Each stage reads, at row p, only row p of its operand, so the stored block at (p, f)
  is a function of row p of the input block: the function krow below, over the lane-padded parameters.
  A change of float format is the identity on the extended reals, and a product into a zero accumulator
  is the plain sum over the contracted coordinate.
-/
import proofs.«404537_j26465588478585_3_alg».proof.Proof.Gen.KernelIdeal.Skeleton
import proofs.«404537_j26465588478585_3_alg».proof.Proof.GruSpec
import proofs.«404537_j26465588478585_3_alg».proof.Proof.LibDot
import Idealize.ShloMosaic.Lib.ValueIdx
import Idealize.ShloMosaic.Lib.ValueLayout
import Idealize.ShloMosaic.Lib.Pipeline.Value

open scoped BigOperators

noncomputable section

namespace Cert.KernelIdeal.KRow

open Cert.KernelIdeal Cert.KernelIdeal.Gen Idealize.ShloMosaic Idealize.ShloMosaic.ValueIdx Cert.Gru

/-- Lane o + j of a 384-lane row: entry j of the gate whose lanes start at o. -/
def lane (o : ℕ) (ho : o + 24 ≤ 384) (j : Fin 24) : Fin 384 := ⟨o + j.val, by have := j.isLt; omega⟩

/-- The one row of a [1, n] array. -/
def row {n : ℕ} (v : (⟨2, ![1, n]⟩ : Shape).Idx → EReal) : Fin n → EReal := fun c => v (ix2 (0 : Fin 1) c)

/-! ## The body's stages as vector operations -/

/-- The input projection: the block times the stored [480, 24] weight, plus the bias row. -/
def featV (x0 : FVec Ideal S2048x480 .f32) (x1 : FVec Ideal S480x24 .bf16) (x2 : FVec Ideal S1x24 .f32) :
    FVec Ideal S2048x24 .f32 :=
  addf (matmul dot_S2048x480_S480x24_S2048x24_1_0_0_1_n_n none (truncf .bf16 x0 bitsLt_bf16_f32)
      (shapeCast S480x24 x1 shapeCasts_S480x24_S480x24) (constant S2048x24 .f32 0x00000000#32))
    (broadcastTo S2048x24 (shapeCast S1x24 x2 shapeCasts_S1x24_S1x24) broadcasts_S1x24_S2048x24)

/-- The gate product: 24 features times the lane-padded [24, 384] weight, plus the lane-padded bias row. -/
def giV (inp : FVec Ideal S2048x24 .f32) (w : FVec Ideal S24x384 .bf16) (b : FVec Ideal S1x384 .f32) :
    FVec Ideal S2048x384 .f32 :=
  addf (matmul dot_S2048x24_S24x384_S2048x384_1_0_0_1_n_n none (truncf .bf16 inp bitsLt_bf16_f32)
      (shapeCast S24x384 w shapeCasts_S24x384_S24x384) (constant S2048x384 .f32 0x00000000#32))
    (broadcastTo S2048x384 (shapeCast S1x384 b shapeCasts_S1x384_S1x384) broadcasts_S1x384_S2048x384)

/-- The gate arithmetic on the three 24-lane slices of a gate product. -/
def gatesV (g : FVec Ideal S2048x384 .f32) (bn : FVec Ideal S1x24 .f32) : FVec Ideal S2048x24 .f32 :=
  mulf (subf (broadcast S2048x24 (Scalar.ofBits (F := Ideal) .f32 0x3F800000#32))
      (logistic (extractStridedSlice S2048x24 ![0, 128] g slices_S2048x384_o0_128_S2048x24)))
    (tanh (addf (extractStridedSlice S2048x24 ![0, 256] g slices_S2048x384_o0_256_S2048x24)
      (mulf (logistic (extractStridedSlice S2048x24 ![0, 0] g slices_S2048x384_o0_0_S2048x24))
        (broadcastTo S2048x24 (shapeCast S1x24 bn shapeCasts_S1x24_S1x24) broadcasts_S1x24_S2048x24))))

/-- The output projection: 24 features times the stored [24, 480] weight. -/
def projV (h : FVec Ideal S2048x24 .f32) (wo : FVec Ideal S24x480 .bf16) : FVec Ideal S2048x480 .f32 :=
  matmul dot_S2048x24_S24x480_S2048x480_1_0_0_1_n_n none (truncf .bf16 h bitsLt_bf16_f32)
    (shapeCast S24x480 wo shapeCasts_S24x480_S24x480) (constant S2048x480 .f32 0x00000000#32)

/-- The gain: the input block times the logistic of the projection plus the bias row. -/
def gainV (x0 : FVec Ideal S2048x480 .f32) (v : FVec Ideal S2048x480 .f32) (bo : FVec Ideal S1x480 .f32) :
    FVec Ideal S2048x480 .f32 :=
  mulf x0 (logistic (addf v (broadcastTo S2048x480 (shapeCast S1x480 bo shapeCasts_S1x480_S1x480) broadcasts_S1x480_S2048x480)))

/-- The three payloads of the printed body are these stages composed. -/
theorem pay2_eq (x0 : FVec Ideal S2048x480 .f32) (x1 : FVec Ideal S480x24 .bf16) (x2 : FVec Ideal S1x24 .f32)
    (w1 : FVec Ideal S24x384 .bf16) (b1 : FVec Ideal S1x384 .f32) (n1 : FVec Ideal S1x24 .f32)
    (w2 : FVec Ideal S24x384 .bf16) (b2 : FVec Ideal S1x384 .f32) :
    k0_pay2 x0 x1 x2 w1 b1 n1 w2 b2 = giV (gatesV (giV (featV x0 x1 x2) w1 b1) n1) w2 b2 := rfl

theorem pay3_eq (v38 : FVec Ideal S2048x384 .f32) (n2 : FVec Ideal S1x24 .f32) (w3 : FVec Ideal S24x384 .bf16)
    (b3 : FVec Ideal S1x384 .f32) (n3 : FVec Ideal S1x24 .f32) (wo : FVec Ideal S24x480 .bf16) :
    k0_pay3 v38 n2 w3 b3 n3 wo = projV (gatesV (giV (gatesV v38 n2) w3 b3) n3) wo := rfl

theorem pay1_eq (x0 : FVec Ideal S2048x480 .f32) (v : FVec Ideal S2048x480 .f32) (bo : FVec Ideal S1x480 .f32) :
    k0_pay1 x0 v bo = gainV x0 v bo := rfl

/-! ## Each stage at an element -/

theorem featV_apply (x0 : FVec Ideal S2048x480 .f32) (x1 : FVec Ideal S480x24 .bf16) (x2 : FVec Ideal S1x24 .f32)
    (p : Fin 2048) (j : Fin 24) :
    featV x0 x1 x2 (ix2 p j) = (∑ k : Fin 480, x0 (ix2 p k) * x1 (ix2 k j)) + x2 (ix2 (0 : Fin 1) j) := by
  unfold featV
  rw [addf_apply, Cert.Lib.Dot.matmul0_rc _ ⟨rfl, rfl, rfl, rfl, rfl, rfl⟩, broadcastTo_1b_ab_apply,
    shapeCast_self, shapeCast_self]
  rfl

theorem giV_apply (inp : FVec Ideal S2048x24 .f32) (w : FVec Ideal S24x384 .bf16) (b : FVec Ideal S1x384 .f32)
    (p : Fin 2048) (c : Fin 384) :
    giV inp w b (ix2 p c) = (∑ k : Fin 24, inp (ix2 p k) * w (ix2 k c)) + b (ix2 (0 : Fin 1) c) := by
  unfold giV
  rw [addf_apply, Cert.Lib.Dot.matmul0_rc _ ⟨rfl, rfl, rfl, rfl, rfl, rfl⟩, broadcastTo_1b_ab_apply,
    shapeCast_self, shapeCast_self]
  rfl

theorem projV_apply (h : FVec Ideal S2048x24 .f32) (wo : FVec Ideal S24x480 .bf16) (p : Fin 2048) (f : Fin 480) :
    projV h wo (ix2 p f) = ∑ k : Fin 24, h (ix2 p k) * wo (ix2 k f) := by
  unfold projV
  rw [Cert.Lib.Dot.matmul0_rc _ ⟨rfl, rfl, rfl, rfl, rfl, rfl⟩, shapeCast_self]
  rfl

theorem gainV_apply (x0 : FVec Ideal S2048x480 .f32) (v : FVec Ideal S2048x480 .f32) (bo : FVec Ideal S1x480 .f32)
    (p : Fin 2048) (f : Fin 480) :
    gainV x0 v bo (ix2 p f) = x0 (ix2 p f) * Ideal.logistic (v (ix2 p f) + bo (ix2 (0 : Fin 1) f)) := by
  unfold gainV
  rw [mulf_apply]
  show _ * Ideal.logistic (addf v _ (ix2 p f)) = _
  rw [addf_apply, broadcastTo_1b_ab_apply, shapeCast_self]

theorem gatesV_apply (g : FVec Ideal S2048x384 .f32) (bn : FVec Ideal S1x24 .f32) (p : Fin 2048) (j : Fin 24) :
    gatesV g bn (ix2 p j)
      = (oneW - Ideal.logistic (g (ix2 p (lane 128 (by omega) j))))
          * Ideal.tanh (g (ix2 p (lane 256 (by omega) j))
              + Ideal.logistic (g (ix2 p (lane 0 (by omega) j))) * bn (ix2 (0 : Fin 1) j)) := by
  unfold gatesV
  rw [mulf_apply, subf_apply, broadcast_apply]
  show (_ - Ideal.logistic (extractStridedSlice S2048x24 ![0, 128] g slices_S2048x384_o0_128_S2048x24 (ix2 p j)))
      * Ideal.tanh (addf (extractStridedSlice S2048x24 ![0, 256] g slices_S2048x384_o0_256_S2048x24) _ (ix2 p j)) = _
  rw [addf_apply, mulf_apply]
  show (_ - Ideal.logistic (extractStridedSlice S2048x24 ![0, 128] g slices_S2048x384_o0_128_S2048x24 (ix2 p j)))
      * Ideal.tanh (extractStridedSlice S2048x24 ![0, 256] g slices_S2048x384_o0_256_S2048x24 (ix2 p j)
          + Ideal.logistic (extractStridedSlice S2048x24 ![0, 0] g slices_S2048x384_o0_0_S2048x24 (ix2 p j)) * _) = _
  rw [slice2_axis1_eq 128, slice2_axis1_eq 256, slice2_axis1_eq 0, broadcastTo_1b_ab_apply, shapeCast_self]
  rfl

/-! ## One row through the body -/

/-- One cell as the kernel computes it, entry j, over a lane-padded weight wp [24, 384], a lane-padded
    bias bp [384] and the candidate's hidden bias bn [24]. -/
def kcell (inp : Fin 24 → EReal) (wp : Fin 24 → Fin 384 → EReal) (bp : Fin 384 → EReal) (bn : Fin 24 → EReal)
    (j : Fin 24) : EReal :=
  (oneW - Ideal.logistic ((∑ k : Fin 24, inp k * wp k (lane 128 (by omega) j)) + bp (lane 128 (by omega) j)))
    * Ideal.tanh (((∑ k : Fin 24, inp k * wp k (lane 256 (by omega) j)) + bp (lane 256 (by omega) j))
        + Ideal.logistic ((∑ k : Fin 24, inp k * wp k (lane 0 (by omega) j)) + bp (lane 0 (by omega) j)) * bn j)

/-- The gate arithmetic of a gate product is the kernel's cell of the product's operand row. -/
theorem cellV_apply (inp : FVec Ideal S2048x24 .f32) (w : FVec Ideal S24x384 .bf16) (b : FVec Ideal S1x384 .f32)
    (bn : FVec Ideal S1x24 .f32) (p : Fin 2048) (j : Fin 24) :
    gatesV (giV inp w b) bn (ix2 p j) = kcell (fun k => inp (ix2 p k)) (mat w) (row b) (row bn) j := by
  rw [gatesV_apply, giV_apply, giV_apply, giV_apply]
  rfl

/-- The stored value of one row, feature f, over the stored (transposed, lane-padded) parameters. -/
def krow (x : Fin 480 → EReal) (wi : Fin 480 → Fin 24 → EReal) (bi : Fin 24 → EReal)
    (wo : Fin 24 → Fin 480 → EReal) (bo : Fin 480 → EReal)
    (w1 : Fin 24 → Fin 384 → EReal) (b1 : Fin 384 → EReal) (n1 : Fin 24 → EReal)
    (w2 : Fin 24 → Fin 384 → EReal) (b2 : Fin 384 → EReal) (n2 : Fin 24 → EReal)
    (w3 : Fin 24 → Fin 384 → EReal) (b3 : Fin 384 → EReal) (n3 : Fin 24 → EReal) (f : Fin 480) : EReal :=
  x f * Ideal.logistic
    ((∑ k : Fin 24,
        kcell (kcell (kcell (fun j => (∑ k : Fin 480, x k * wi k j) + bi j) w1 b1 n1) w2 b2 n2) w3 b3 n3 k * wo k f)
      + bo f)

/-- THE PAYLOAD AT (p, f): the body's stored block is krow of row p of the input block. -/
theorem payload_apply (x0 : FVec Ideal S2048x480 .f32) (x1 : FVec Ideal S480x24 .bf16) (x2 : FVec Ideal S1x24 .f32)
    (x3 : FVec Ideal S24x480 .bf16) (x4 : FVec Ideal S1x480 .f32)
    (w1 : FVec Ideal S24x384 .bf16) (b1 : FVec Ideal S1x384 .f32) (n1 : FVec Ideal S1x24 .f32)
    (w2 : FVec Ideal S24x384 .bf16) (b2 : FVec Ideal S1x384 .f32) (n2 : FVec Ideal S1x24 .f32)
    (w3 : FVec Ideal S24x384 .bf16) (b3 : FVec Ideal S1x384 .f32) (n3 : FVec Ideal S1x24 .f32)
    (p : Fin 2048) (f : Fin 480) :
    k0_pay1 (F := Ideal) x0 (k0_pay3 (F := Ideal) (k0_pay2 (F := Ideal) x0 x1 x2 w1 b1 n1 w2 b2) n2 w3 b3 n3 x3) x4 (ix2 p f)
      = krow (mat x0 p) (mat x1) (row x2) (mat x3) (row x4) (mat w1) (row b1) (row n1)
          (mat w2) (row b2) (row n2) (mat w3) (row b3) (row n3) f := by
  rw [pay1_eq, pay3_eq, pay2_eq, gainV_apply, projV_apply]
  simp only [cellV_apply, featV_apply]
  rfl

/-! ## The kernel's row is the specification's row

The stored parameters are the reference's, re-laid: the projections transposed, gate g of a cell's input
weight transposed into lanes 128 g .. 128 g + 23, the reset and update gates' two biases summed into one
lane-padded row, the candidate's input bias in lanes 256.. and its hidden bias kept apart.  With that the
two cells differ only in where the sum of the two biases is bracketed: (s + bi) + bh against s + (bi + bh). -/

/-- The kernel's lane-padded parameters of one cell hold the reference's stacked ones. -/
structure Padded (W : Fin 72 → Fin 24 → EReal) (bi bh : Fin 72 → EReal)
    (wp : Fin 24 → Fin 384 → EReal) (bp : Fin 384 → EReal) (bn : Fin 24 → EReal) : Prop where
  w0 : ∀ k j, wp k (lane 0 (by omega) j) = W (gate 0 (by omega) j) k
  w1 : ∀ k j, wp k (lane 128 (by omega) j) = W (gate 24 (by omega) j) k
  w2 : ∀ k j, wp k (lane 256 (by omega) j) = W (gate 48 (by omega) j) k
  b0 : ∀ j, bp (lane 0 (by omega) j) = bi (gate 0 (by omega) j) + bh (gate 0 (by omega) j)
  b1 : ∀ j, bp (lane 128 (by omega) j) = bi (gate 24 (by omega) j) + bh (gate 24 (by omega) j)
  b2 : ∀ j, bp (lane 256 (by omega) j) = bi (gate 48 (by omega) j)
  n : ∀ j, bn j = bh (gate 48 (by omega) j)

/-- Over such parameters the kernel's cell is the specification's. -/
theorem kcell_eq_cell {W : Fin 72 → Fin 24 → EReal} {bi bh : Fin 72 → EReal}
    {wp : Fin 24 → Fin 384 → EReal} {bp : Fin 384 → EReal} {bn : Fin 24 → EReal}
    (h : Padded W bi bh wp bp bn) (inp : Fin 24 → EReal) : kcell inp wp bp bn = cell inp W bi bh := by
  funext j
  unfold kcell cell affine
  simp only [h.w0, h.w1, h.w2, h.b0, h.b1, h.b2, h.n, add_assoc]

/-- Over transposed projections and padded cells the kernel's row is the specification's. -/
theorem krow_eq_outRow (x : Fin 480 → EReal) {Win : Fin 24 → Fin 480 → EReal} {bin : Fin 24 → EReal}
    {Wout : Fin 480 → Fin 24 → EReal} {bout : Fin 480 → EReal}
    {W1 : Fin 72 → Fin 24 → EReal} {bi1 bh1 : Fin 72 → EReal}
    {W2 : Fin 72 → Fin 24 → EReal} {bi2 bh2 : Fin 72 → EReal}
    {W3 : Fin 72 → Fin 24 → EReal} {bi3 bh3 : Fin 72 → EReal}
    {wi : Fin 480 → Fin 24 → EReal} {bi : Fin 24 → EReal} {wo : Fin 24 → Fin 480 → EReal} {bo : Fin 480 → EReal}
    {w1 : Fin 24 → Fin 384 → EReal} {b1 : Fin 384 → EReal} {n1 : Fin 24 → EReal}
    {w2 : Fin 24 → Fin 384 → EReal} {b2 : Fin 384 → EReal} {n2 : Fin 24 → EReal}
    {w3 : Fin 24 → Fin 384 → EReal} {b3 : Fin 384 → EReal} {n3 : Fin 24 → EReal}
    (hwi : ∀ k j, wi k j = Win j k) (hbi : ∀ j, bi j = bin j) (hwo : ∀ k f, wo k f = Wout f k) (hbo : ∀ f, bo f = bout f)
    (h1 : Padded W1 bi1 bh1 w1 b1 n1) (h2 : Padded W2 bi2 bh2 w2 b2 n2) (h3 : Padded W3 bi3 bh3 w3 b3 n3)
    (f : Fin 480) :
    krow x wi bi wo bo w1 b1 n1 w2 b2 n2 w3 b3 n3 f
      = outRow x Win bin Wout bout W1 bi1 bh1 W2 bi2 bh2 W3 bi3 bh3 f := by
  unfold krow outRow
  rw [kcell_eq_cell h3, kcell_eq_cell h2, kcell_eq_cell h1]
  unfold affine
  simp only [hwi, hbi, hwo, hbo]

end Cert.KernelIdeal.KRow

end
-- ==== Proof.LibScatterSet.lean ====
import Idealize.ShloMosaic.PureOps.ShapeOps
import Idealize.ShloMosaic.PureOps.Dims
import Idealize.ShloMosaic.Lib.ValueIdx
import Idealize.ShloMosaic.Lib.ValueLayout
import Idealize.ShloMosaic.Lib.IdealHost

/-!
# An overwriting scatter at one column offset, read at an index

The host scatter with body "return the update" writes a rank-2 update of W columns into a rank-2
operand of C columns, all rows kept, the columns shifted by one start offset read off a one-entry
index vector. Update element (r, q) lands at operand element (r, o + q) when o + q < C and is
dropped otherwise. Since distinct update elements land at distinct operand elements, the left fold
over the update indices, read at (k, c), is the update's element (k, c - o) when o ≤ c < o + W and
the operand's own element otherwise.
-/

namespace Cert.Lib.ScatterSet

open Idealize.ShloMosaic Idealize.ShloMosaic.ValueIdx

/-! ## A left fold of pointwise updates, read at one point -/

section Fold
variable {ι κ α : Type}

/-- If no step of the fold changes the value at `i`, the fold at `i` is the start value at `i`. -/
theorem foldl_miss (stepf : (ι → α) → κ → (ι → α)) (i : ι) :
    ∀ (l : List κ) (r : ι → α), (∀ n ∈ l, ∀ r, stepf r n i = r i) → l.foldl stepf r i = r i
  | [], _, _ => rfl
  | n :: l, r, h => by
    rw [List.foldl_cons, foldl_miss stepf i l _ (fun m hm => h m (List.mem_cons_of_mem _ hm)),
      h n List.mem_cons_self]

/-- If exactly one step `n0` of a duplicate-free list sets the value at `i` to `v` (whatever the accumulator)
    and every other step leaves the value at `i` alone, the fold at `i` is `v`: the steps before `n0` are
    forgotten and the steps after it miss. -/
theorem foldl_hit (stepf : (ι → α) → κ → (ι → α)) (i : ι) (v : α) (n0 : κ)
    (hn0 : ∀ r, stepf r n0 i = v) :
    ∀ (l : List κ) (r : ι → α), l.Nodup → n0 ∈ l →
      (∀ n ∈ l, n ≠ n0 → ∀ r, stepf r n i = r i) → l.foldl stepf r i = v
  | [], _, _, hm, _ => absurd hm List.not_mem_nil
  | n :: l, r, hnd, hm, h => by
    rw [List.foldl_cons]
    rcases List.nodup_cons.mp hnd with ⟨hnl, hnd'⟩
    by_cases hn : n = n0
    · subst hn
      rw [foldl_miss stepf i l _
        (fun m hm' => h m (List.mem_cons_of_mem _ hm') (fun e => hnl (e ▸ hm'))), hn0]
    · have hm0 : n0 ∈ l := by
        rcases List.mem_cons.mp hm with e | e
        · exact absurd e.symm hn
        · exact e
      exact foldl_hit stepf i v n0 hn0 l _ hnd' hm0 (fun m hm' => h m (List.mem_cons_of_mem _ hm'))

end Fold

/-! ## Where an update element lands

The dimension numbers are those of the two printed records: both update axes are window axes, no
operand axis is inserted, the one start component goes to operand axis 1, and the index vector lies
along axis 0 of the one-entry indices. They enter as equations on the record's fields, so that the
same text serves every row count `R`, operand width `C` and update width `W`. -/

section Landing
variable {R C W w : ℕ}

/-- The window coordinate on either operand axis is the update index's own coordinate on that axis. -/
theorem win (d : ScatterDims ⟨2, ![R, C]⟩ ⟨1, ![1]⟩ ⟨2, ![R, W]⟩)
    (h1 : d.updateWindowDims = [0, 1]) (h2 : d.insertedWindowDims = [])
    (jj : (⟨2, ![R, W]⟩ : Shape).Idx) :
    d.window jj 0 = (jj 0).val ∧ d.window jj 1 = (jj 1).val := by
  obtain ⟨uw, iw, sd, iv, wf⟩ := d
  simp only at h1 h2
  subst h1 h2
  exact ⟨rfl, rfl⟩

/-- The window starts at 0 on axis 0 (no start component names it) and at the signed value of the
    index vector's one entry on axis 1. -/
theorem st (d : ScatterDims ⟨2, ![R, C]⟩ ⟨1, ![1]⟩ ⟨2, ![R, W]⟩)
    (h3 : d.scatterDimsToOperandDims = [1])
    (idx : IVec ⟨1, ![1]⟩ w) (off : BitVec w) (hidx : ∀ b, idx b = off)
    (jj : (⟨2, ![R, W]⟩ : Shape).Idx) :
    d.start jj idx 0 = 0 ∧ d.start jj idx 1 = off.toInt := by
  obtain ⟨uw, iw, sd, iv, wf⟩ := d
  simp only at h3
  subst h3
  constructor
  · unfold ScatterDims.start
    rw [dif_neg (show ¬ (0 : Fin 2) ∈ [(1 : Fin 2)] by decide)]
  · unfold ScatterDims.start
    rw [dif_pos (List.mem_singleton.mpr rfl), hidx]

/-- An update element that lands at all lands in its own row, `o` columns to the right. -/
theorem landing (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (jj : (⟨2, ![R, W]⟩ : Shape).Idx) (i : (⟨2, ![R, C]⟩ : Shape).Idx)
    (h : d.resultIdx? jj idx = some i) : (i 0).val = (jj 0).val ∧ (i 1).val = o + (jj 1).val := by
  unfold ScatterDims.resultIdx? at h
  split at h
  · cases h
    constructor
    · show (d.start jj idx 0 + d.window jj 0).toNat = _
      rw [(st d h3 idx off hidx jj).1, (win d h1 h2 jj).1]; omega
    · show (d.start jj idx 1 + d.window jj 1).toNat = _
      rw [(st d h3 idx off hidx jj).2, (win d h1 h2 jj).2, hoff]; omega
  · cases h

/-- An update element whose shifted column is inside the operand does land, at that column of its row. -/
theorem landing_some (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (jj : (⟨2, ![R, W]⟩ : Shape).Idx) (hlt : o + (jj 1).val < C) :
    d.resultIdx? jj idx = some (ix2 (jj 0) ⟨o + (jj 1).val, hlt⟩) := by
  have hs := st d h3 idx off hidx jj
  have hw := win d h1 h2 jj
  have hall : ∀ a, 0 ≤ d.start jj idx a + d.window jj a ∧
      d.start jj idx a + d.window jj a < (⟨2, ![R, C]⟩ : Shape).size a := by
    intro a
    match a with
    | ⟨0, _⟩ =>
      show 0 ≤ d.start jj idx 0 + d.window jj 0 ∧ d.start jj idx 0 + ↑(d.window jj 0) < ((R : ℕ) : ℤ)
      rw [hs.1, hw.1]; have := idx2_lt0 jj; omega
    | ⟨1, _⟩ =>
      show 0 ≤ d.start jj idx 1 + d.window jj 1 ∧ d.start jj idx 1 + ↑(d.window jj 1) < ((C : ℕ) : ℤ)
      rw [hs.2, hw.2, hoff]; omega
  unfold ScatterDims.resultIdx?
  rw [dif_pos hall]
  congr 1
  funext a
  refine Fin.ext ?_
  match a with
  | ⟨0, _⟩ =>
    show (d.start jj idx 0 + d.window jj 0).toNat = (jj 0).val
    rw [hs.1, hw.1]; omega
  | ⟨1, _⟩ =>
    show (d.start jj idx 1 + d.window jj 1).toNat = o + (jj 1).val
    rw [hs.2, hw.2, hoff]; omega

/-! ## The scatter read at an index -/

/-- Inside the written columns: element (k, o + j) of the result is the update's element (k, j). The
    one update index that lands there is (k, j) itself; any other update index that landed there
    would have the same row and the same column, hence be (k, j). -/
theorem scatter_hit {α : Type} (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (x : (⟨2, ![R, C]⟩ : Shape).Idx → α) (upd : (⟨2, ![R, W]⟩ : Shape).Idx → α)
    (k : Fin R) (j : Fin W) (c : Fin C) (hc : c.val = o + j.val) :
    Host.scatter d (fun _ b => b) x idx upd (ix2 k c) = upd (ix2 k j) := by
  unfold Host.scatter
  refine foldl_hit _ (ix2 k c) (upd (ix2 k j)) ((⟨2, ![R, W]⟩ : Shape).rowMajor (ix2 k j)) ?_ _ x
    (List.nodup_finRange _) (List.mem_finRange _) ?_
  · intro r
    have hlt : o + ((ix2 k j : (⟨2, ![R, W]⟩ : Shape).Idx) 1).val < C := by
      show o + j.val < C
      have := c.isLt; omega
    have hl := landing_some d h1 h2 h3 idx off hidx o hoff (ix2 k j) hlt
    have he : (ix2 k c : (⟨2, ![R, C]⟩ : Shape).Idx) = ix2 k ⟨o + j.val, hlt⟩ := by
      congr 1; exact Fin.ext hc
    simp only [Equiv.symm_apply_apply]
    rw [hl]
    show (if ix2 k c = ix2 k ⟨o + j.val, hlt⟩ then upd (ix2 k j) else r (ix2 k c)) = upd (ix2 k j)
    rw [if_pos he]
  · intro n _ hne r
    generalize hjj : (⟨2, ![R, W]⟩ : Shape).rowMajor.symm n = jj
    cases hres : d.resultIdx? jj idx with
    | none => rfl
    | some i =>
      show (if ix2 k c = i then upd jj else r (ix2 k c)) = r (ix2 k c)
      rw [if_neg]
      intro e
      obtain ⟨e0, e1⟩ := landing d h1 h2 h3 idx off hidx o hoff jj i hres
      rw [← e] at e0 e1
      apply hne
      rw [← Equiv.symm_apply_eq, hjj, eq_ix2 jj]
      congr 1
      · exact Fin.ext e0.symm
      · refine Fin.ext ?_
        have e1' : c.val = o + (jj 1).val := e1
        omega

/-- Outside the written columns: no update element lands in column `c` when `c < o` or
    `o + W ≤ c`, so the result keeps the operand's element. -/
theorem scatter_miss {α : Type} (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (x : (⟨2, ![R, C]⟩ : Shape).Idx → α) (upd : (⟨2, ![R, W]⟩ : Shape).Idx → α)
    (k : Fin R) (c : Fin C) (hc : c.val < o ∨ o + W ≤ c.val) :
    Host.scatter d (fun _ b => b) x idx upd (ix2 k c) = x (ix2 k c) := by
  unfold Host.scatter
  refine foldl_miss _ (ix2 k c) _ x ?_
  intro n _ r
  generalize hjj : (⟨2, ![R, W]⟩ : Shape).rowMajor.symm n = jj
  cases hres : d.resultIdx? jj idx with
  | none => rfl
  | some i =>
    show (if ix2 k c = i then upd jj else r (ix2 k c)) = r (ix2 k c)
    rw [if_neg]
    intro e
    obtain ⟨_, e1⟩ := landing d h1 h2 h3 idx off hidx o hoff jj i hres
    rw [← e] at e1
    have e1' : c.val = o + (jj 1).val := e1
    have := idx2_lt1 jj
    omega

end Landing

end Cert.Lib.ScatterSet
-- ==== Proof.ScatterRead.lean ====
/-
  The two overwriting scatters of the kernel's host code, read at an index: the [24, 24] block written into
  the [24, 384] weight and the [1, 24] row written into the [1, 384] bias, each at the column offset its
  one-entry index vector holds.  Both are instances of the general fact about a rank-2 overwrite at one
  column offset; the index vector is a scalar word broadcast to one entry, so it reads that word everywhere.
-/
import proofs.«404537_j26465588478585_3_alg».proof.Proof.Gen.KernelIdeal
import proofs.«404537_j26465588478585_3_alg».proof.Proof.LibScatterSet
import Idealize.ShloMosaic.Lib.ValueIdx
import Idealize.ShloMosaic.Lib.ValueLayout
import Idealize.ShloMosaic.Lib.IdealHost

namespace Cert.KernelIdeal.ScatterRead

open Idealize.ShloMosaic Idealize.ShloMosaic.ValueIdx Cert.KernelIdeal Cert.Lib.ScatterSet

/-! ## The two printed scatters

The index vector is a scalar constant broadcast to one entry, so it reads `off` everywhere. -/

section Printed
open Facts₀
variable {α : Type}

theorem idx_const (off : BitVec 32) (b : S1.Idx) :
    broadcastInDim S1 ![] bcast_S_S1 (constantI S_ 32 off) b = off := by
  rw [broadcastInDim_scalar_apply, constantI_apply]

/-- The [24, 384] weight: column `o + j` of row `k` is the update's (k, j). -/
theorem scatterW_hit (x : S24x384.Idx → α) (upd : S24x24.Idx → α) (off : BitVec 32) (o : ℕ) (hoff : off.toInt = (o : ℤ))
    (k j : Fin 24) (c : Fin 384) (hc : c.val = o + j.val) :
    Host.scatter scatter_S24x384_S1_S24x24_01_n_1_0 (fun _ b => b) x (broadcastInDim S1 ![] bcast_S_S1 (constantI S_ 32 off)) upd (ix2 k c) = upd (ix2 k j) :=
  scatter_hit scatter_S24x384_S1_S24x24_01_n_1_0 rfl rfl rfl _ off (idx_const off) o hoff x upd k j c hc

/-- The [24, 384] weight: a column outside `[o, o + 24)` keeps the operand's element. -/
theorem scatterW_miss (x : S24x384.Idx → α) (upd : S24x24.Idx → α) (off : BitVec 32) (o : ℕ) (hoff : off.toInt = (o : ℤ))
    (k : Fin 24) (c : Fin 384) (hc : c.val < o ∨ o + 24 ≤ c.val) :
    Host.scatter scatter_S24x384_S1_S24x24_01_n_1_0 (fun _ b => b) x (broadcastInDim S1 ![] bcast_S_S1 (constantI S_ 32 off)) upd (ix2 k c) = x (ix2 k c) :=
  scatter_miss scatter_S24x384_S1_S24x24_01_n_1_0 rfl rfl rfl _ off (idx_const off) o hoff x upd k c hc

/-- The [1, 384] bias: column `o + j` is the update's (u, j). -/
theorem scatterB_hit (x : S1x384.Idx → α) (upd : S1x24.Idx → α) (off : BitVec 32) (o : ℕ) (hoff : off.toInt = (o : ℤ))
    (u : Fin 1) (j : Fin 24) (c : Fin 384) (hc : c.val = o + j.val) :
    Host.scatter scatter_S1x384_S1_S1x24_01_n_1_0 (fun _ b => b) x (broadcastInDim S1 ![] bcast_S_S1 (constantI S_ 32 off)) upd (ix2 u c) = upd (ix2 u j) :=
  scatter_hit scatter_S1x384_S1_S1x24_01_n_1_0 rfl rfl rfl _ off (idx_const off) o hoff x upd u j c hc

/-- The [1, 384] bias: a column outside `[o, o + 24)` keeps the operand's element. -/
theorem scatterB_miss (x : S1x384.Idx → α) (upd : S1x24.Idx → α) (off : BitVec 32) (o : ℕ) (hoff : off.toInt = (o : ℤ))
    (u : Fin 1) (c : Fin 384) (hc : c.val < o ∨ o + 24 ≤ c.val) :
    Host.scatter scatter_S1x384_S1_S1x24_01_n_1_0 (fun _ b => b) x (broadcastInDim S1 ![] bcast_S_S1 (constantI S_ 32 off)) upd (ix2 u c) = x (ix2 u c) :=
  scatter_miss scatter_S1x384_S1_S1x24_01_n_1_0 rfl rfl rfl _ off (idx_const off) o hoff x upd u c hc

end Printed

end Cert.KernelIdeal.ScatterRead
-- ==== Proof.HostLayout.lean ====
/-
  The parameters the kernel stores, as re-laid copies of the arguments.

  Before the region the host code transposes the two projection weights, turns each bias vector into a
  one-row array, and for each cell builds a [24, 384] weight and a [1, 384] bias: into an array of zeros it
  writes the transposed 24 x 24 block of gate g at columns 128 g .. 128 g + 23 (g = 0, 1, 2), and into a
  row of zeros the sums b_ih + b_hh of the reset and update gates' biases at columns 0.. and 128.. and the
  candidate's b_ih at columns 256..; the candidate's b_hh stays a separate [1, 24] row.  A write at a later
  offset leaves the columns of an earlier one alone, so reading column 128 g + j finds gate g's entry j:
  row 24 g + j of the stacked parameter.  The change of float format is the identity on the extended reals.
-/
import proofs.«404537_j26465588478585_3_alg».proof.Proof.Gen.KernelIdeal
import proofs.«404537_j26465588478585_3_alg».proof.Proof.ScatterRead
import proofs.«404537_j26465588478585_3_alg».proof.Proof.KernelRow
import Idealize.ShloMosaic.PureOps.Ideal
import Idealize.ShloMosaic.Lib.ValueIdx
import Idealize.ShloMosaic.Lib.ValueLayout
import Idealize.ShloMosaic.Lib.Pipeline.Value

noncomputable section

namespace Cert.KernelIdeal.HostLayout

open Cert.KernelIdeal Cert.KernelIdeal.Gen Idealize.ShloMosaic Idealize.ShloMosaic.ValueIdx Cert.Gru
open Cert.KernelIdeal.KRow Cert.KernelIdeal.ScatterRead

/-! ## The stored arrays as functions of the arguments -/

/-- The stored input projection: W_in transposed. -/
def winT (W : FVec Ideal S24x480 .f32) : FVec Ideal S480x24 .bf16 :=
  truncf .bf16 (transpose S480x24 [1, 0] W transposes_S24x480_S480x24_1_0) bitsLt_bf16_f32

/-- The stored output projection: W_out transposed. -/
def woutT (W : FVec Ideal S480x24 .f32) : FVec Ideal S24x480 .bf16 :=
  truncf .bf16 (transpose S24x480 [1, 0] W transposes_S480x24_S24x480_1_0) bitsLt_bf16_f32

/-- A 24-vector as one row, and a 480-vector as one row. -/
def row24 (b : FVec Ideal S24 .f32) : FVec Ideal S1x24 .f32 := shapeCast S1x24 b shapeCasts_S24_S1x24
def row480 (b : FVec Ideal S480 .f32) : FVec Ideal S1x480 .f32 := shapeCast S1x480 b shapeCasts_S480_S1x480

/-- The one-entry start index holding the word off. -/
abbrev startAt (off : BitVec 32) : IVec S1 32 := broadcastInDim S1 ![] bcast_S_S1 (constantI S_ 32 off)

/-- The lane-padded weight of one cell: the three gates' transposed blocks written into zeros at columns 0, 128, 256. -/
def wpadT (W : FVec Ideal S72x24 .f32) : FVec Ideal S24x384 .bf16 :=
  truncf .bf16
    (Host.scatter scatter_S24x384_S1_S24x24_01_n_1_0 (fun _ b => b)
      (Host.scatter scatter_S24x384_S1_S24x24_01_n_1_0 (fun _ b => b)
        (Host.scatter scatter_S24x384_S1_S24x24_01_n_1_0 (fun _ b => b)
          (broadcastInDim S24x384 ![] bcast_S_S24x384 (constant (F := Ideal) S_ .f32 0x00000000#32))
          (startAt 0#32)
          (transpose S24x24 [1, 0] (extractStridedSlice S24x24 ![0, 0] W slices_S72x24_S24x24_0_0) transposes_S24x24_S24x24_1_0))
        (startAt 128#32)
        (transpose S24x24 [1, 0] (extractStridedSlice S24x24 ![24, 0] W slices_S72x24_S24x24_24_0) transposes_S24x24_S24x24_1_0))
      (startAt 256#32)
      (transpose S24x24 [1, 0] (extractStridedSlice S24x24 ![48, 0] W slices_S72x24_S24x24_48_0) transposes_S24x24_S24x24_1_0))
    bitsLt_bf16_f32

/-- The lane-padded bias of one cell: b_ih + b_hh of gates 0 and 1 and b_ih of gate 2, written into a row of zeros. -/
def bpadT (bi bh : FVec Ideal S72 .f32) : FVec Ideal S1x384 .f32 :=
  Host.scatter scatter_S1x384_S1_S1x24_01_n_1_0 (fun _ b => b)
    (Host.scatter scatter_S1x384_S1_S1x24_01_n_1_0 (fun _ b => b)
      (Host.scatter scatter_S1x384_S1_S1x24_01_n_1_0 (fun _ b => b)
        (broadcastInDim S1x384 ![] bcast_S_S1x384 (constant (F := Ideal) S_ .f32 0x00000000#32))
        (startAt 0#32)
        (shapeCast S1x24 (addf (extractStridedSlice S24 ![0] bi slices_S72_S24_0) (extractStridedSlice S24 ![0] bh slices_S72_S24_0))
          shapeCasts_S24_S1x24))
      (startAt 128#32)
      (shapeCast S1x24 (addf (extractStridedSlice S24 ![24] bi slices_S72_S24_24) (extractStridedSlice S24 ![24] bh slices_S72_S24_24))
        shapeCasts_S24_S1x24))
    (startAt 256#32)
    (shapeCast S1x24 (extractStridedSlice S24 ![48] bi slices_S72_S24_48) shapeCasts_S24_S1x24)

/-- The candidate's hidden bias as one row. -/
def bhnT (bh : FVec Ideal S72 .f32) : FVec Ideal S1x24 .f32 :=
  shapeCast S1x24 (extractStridedSlice S24 ![48] bh slices_S72_S24_48) shapeCasts_S24_S1x24

/-! ## Read at an index -/

theorem winT_apply (W : FVec Ideal S24x480 .f32) (k : Fin 480) (j : Fin 24) : winT W (ix2 k j) = W (ix2 j k) := by
  unfold winT
  rw [truncf_apply, transpose_ix2_apply]

theorem woutT_apply (W : FVec Ideal S480x24 .f32) (k : Fin 24) (f : Fin 480) : woutT W (ix2 k f) = W (ix2 f k) := by
  unfold woutT
  rw [truncf_apply, transpose_ix2_apply]

theorem row24_apply (b : FVec Ideal S24 .f32) (j : Fin 24) : row24 b (ix2 (0 : Fin 1) j) = b (ix1 j) := by
  unfold row24
  rw [shapeCast_a_1a_apply]

theorem row480_apply (b : FVec Ideal S480 .f32) (f : Fin 480) : row480 b (ix2 (0 : Fin 1) f) = b (ix1 f) := by
  unfold row480
  rw [shapeCast_a_1a_apply]

/-- A 72-vector cut from o reads, at j, the source at o + j. -/
theorem slice72_apply (o : ℕ) (b : FVec Ideal S72 .f32) (h : S72.Slices ![o] S24) (j : Fin 24) (k : Fin 72)
    (hk : k.val = o + j.val) : extractStridedSlice S24 ![o] b h (ix1 j) = b (ix1 k) :=
  extractStridedSlice_apply _ _ _ _ _ (fun ax => by match ax with | ⟨0, _⟩ => exact hk)

/-- The transposed block of the gate whose rows start at o, at (k, j): row o + j of the stacked weight, column k. -/
theorem gateBlock_apply (o : ℕ) (W : FVec Ideal S72x24 .f32) (h : S72x24.Slices ![o, 0] S24x24) (k j : Fin 24) (r : Fin 72)
    (hr : r.val = o + j.val) :
    transpose S24x24 [1, 0] (extractStridedSlice S24x24 ![o, 0] W h) transposes_S24x24_S24x24_1_0 (ix2 k j) = W (ix2 r k) := by
  rw [transpose_ix2_apply, slice2_axis0_apply o W h j k r hr]

theorem toInt0 : (0#32 : BitVec 32).toInt = ((0 : ℕ) : ℤ) := by decide
theorem toInt128 : (128#32 : BitVec 32).toInt = ((128 : ℕ) : ℤ) := by decide
theorem toInt256 : (256#32 : BitVec 32).toInt = ((256 : ℕ) : ℤ) := by decide

/-- THE RE-LAID PARAMETERS OF ONE CELL hold the stacked ones: column 128 g + j of the stored weight and bias is
    row 24 g + j of the argument (the two gate biases summed where the kernel sums them). -/
theorem padded (W : FVec Ideal S72x24 .f32) (bi bh : FVec Ideal S72 .f32) :
    Padded (mat W) (vec bi) (vec bh) (mat (wpadT W)) (row (bpadT bi bh)) (row (bhnT bh)) where
  w0 := fun k j => by
    show wpadT W (ix2 k (lane 0 (by omega) j)) = W (ix2 (gate 0 (by omega) j) k)
    unfold wpadT
    rw [truncf_apply,
      scatterW_miss _ _ 256#32 256 toInt256 k _ (Or.inl (by show 0 + j.val < 256; have := j.isLt; omega)),
      scatterW_miss _ _ 128#32 128 toInt128 k _ (Or.inl (by show 0 + j.val < 128; have := j.isLt; omega)),
      scatterW_hit _ _ 0#32 0 toInt0 k j _ rfl,
      gateBlock_apply 0 W _ k j (gate 0 (by omega) j) rfl]
  w1 := fun k j => by
    show wpadT W (ix2 k (lane 128 (by omega) j)) = W (ix2 (gate 24 (by omega) j) k)
    unfold wpadT
    rw [truncf_apply,
      scatterW_miss _ _ 256#32 256 toInt256 k _ (Or.inl (by show 128 + j.val < 256; have := j.isLt; omega)),
      scatterW_hit _ _ 128#32 128 toInt128 k j _ rfl,
      gateBlock_apply 24 W _ k j (gate 24 (by omega) j) rfl]
  w2 := fun k j => by
    show wpadT W (ix2 k (lane 256 (by omega) j)) = W (ix2 (gate 48 (by omega) j) k)
    unfold wpadT
    rw [truncf_apply,
      scatterW_hit _ _ 256#32 256 toInt256 k j _ rfl,
      gateBlock_apply 48 W _ k j (gate 48 (by omega) j) rfl]
  b0 := fun j => by
    show bpadT bi bh (ix2 (0 : Fin 1) (lane 0 (by omega) j)) = bi (ix1 (gate 0 (by omega) j)) + bh (ix1 (gate 0 (by omega) j))
    unfold bpadT
    rw [scatterB_miss _ _ 256#32 256 toInt256 0 _ (Or.inl (by show 0 + j.val < 256; have := j.isLt; omega)),
      scatterB_miss _ _ 128#32 128 toInt128 0 _ (Or.inl (by show 0 + j.val < 128; have := j.isLt; omega)),
      scatterB_hit _ _ 0#32 0 toInt0 0 j _ rfl,
      shapeCast_a_1a_apply, addf_apply,
      slice72_apply 0 bi _ j (gate 0 (by omega) j) rfl, slice72_apply 0 bh _ j (gate 0 (by omega) j) rfl]
  b1 := fun j => by
    show bpadT bi bh (ix2 (0 : Fin 1) (lane 128 (by omega) j)) = bi (ix1 (gate 24 (by omega) j)) + bh (ix1 (gate 24 (by omega) j))
    unfold bpadT
    rw [scatterB_miss _ _ 256#32 256 toInt256 0 _ (Or.inl (by show 128 + j.val < 256; have := j.isLt; omega)),
      scatterB_hit _ _ 128#32 128 toInt128 0 j _ rfl,
      shapeCast_a_1a_apply, addf_apply,
      slice72_apply 24 bi _ j (gate 24 (by omega) j) rfl, slice72_apply 24 bh _ j (gate 24 (by omega) j) rfl]
  b2 := fun j => by
    show bpadT bi bh (ix2 (0 : Fin 1) (lane 256 (by omega) j)) = bi (ix1 (gate 48 (by omega) j))
    unfold bpadT
    rw [scatterB_hit _ _ 256#32 256 toInt256 0 j _ rfl,
      shapeCast_a_1a_apply, slice72_apply 48 bi _ j (gate 48 (by omega) j) rfl]
  n := fun j => by
    show bhnT bh (ix2 (0 : Fin 1) j) = bh (ix1 (gate 48 (by omega) j))
    unfold bhnT
    rw [shapeCast_a_1a_apply, slice72_apply 48 bh _ j (gate 48 (by omega) j) rfl]

end Cert.KernelIdeal.HostLayout

end
-- ==== Proof.RegionEntry.lean ====
/-
  What the region finds in the arrays its parameter windows stage.

  Each of the thirteen parameter arrays is written by the host operations before the region, from the
  arguments alone: the two projections transposed, the two projection biases as rows, and per cell the
  lane-padded weight, the lane-padded bias and the candidate's hidden bias row.  Reading the list of host
  operations back at each of these buffers gives exactly those re-laid copies of the arguments.
-/
import proofs.«404537_j26465588478585_3_alg».proof.Proof.Gen.KernelIdeal.Frame
import proofs.«404537_j26465588478585_3_alg».proof.Proof.HostLayout
import Idealize.ShloMosaic.Lib.StableHlo.Run
import Idealize.ShloMosaic.PureOps.Ideal

noncomputable section

namespace Cert.KernelIdeal.RegionEntry

open Cert.KernelIdeal Cert.KernelIdeal.Gen Idealize.ShloMosaic Idealize.ShloMosaic.TcCoe Idealize.SL.Sem Idealize.ShloMosaic.StableHlo
open Cert.KernelIdeal.HostLayout

variable (m : (ℓ : Loc nD τ sig) → Buf (Elt Ideal) ℓ)

/-- The stored input projection is W_in transposed. -/
theorem V_win (c : Dev nD) : (V (F := Ideal) m c main_v1 : S480x24.Idx → EReal) = winT (m ((c : Thread nD τ).loc main_arg1)) := by
  dsimp only [V, hostOps0]
  after_results_simp
  rfl

/-- The input projection's bias as one row. -/
theorem V_bin (c : Dev nD) : (V (F := Ideal) m c main_v2 : S1x24.Idx → EReal) = row24 (m ((c : Thread nD τ).loc main_arg2)) := by
  dsimp only [V, hostOps0]
  after_results_simp
  rfl

/-- The stored output projection is W_out transposed. -/
theorem V_wout (c : Dev nD) : (V (F := Ideal) m c main_v4 : S24x480.Idx → EReal) = woutT (m ((c : Thread nD τ).loc main_arg3)) := by
  dsimp only [V, hostOps0]
  after_results_simp
  rfl

/-- The output projection's bias as one row. -/
theorem V_bout (c : Dev nD) : (V (F := Ideal) m c main_v5 : S1x480.Idx → EReal) = row480 (m ((c : Thread nD τ).loc main_arg4)) := by
  dsimp only [V, hostOps0]
  after_results_simp
  rfl

/-- Cell 1: the lane-padded weight, the lane-padded bias, the candidate's hidden bias row. -/
theorem V_w1 (c : Dev nD) : (V (F := Ideal) m c main_v25 : S24x384.Idx → EReal) = wpadT (m ((c : Thread nD τ).loc main_arg5)) := by
  dsimp only [V, hostOps0]
  after_results_simp
  rfl

set_option maxHeartbeats 4000000 in
theorem V_b1 (c : Dev nD) : (V (F := Ideal) m c main_v37 : S1x384.Idx → EReal) = bpadT (m ((c : Thread nD τ).loc main_arg7)) (m ((c : Thread nD τ).loc main_arg8)) := by
  dsimp only [V, hostOps0]
  after_results_simp
  rfl

set_option maxHeartbeats 4000000 in
theorem V_n1 (c : Dev nD) : (V (F := Ideal) m c main_v38 : S1x24.Idx → EReal) = bhnT (m ((c : Thread nD τ).loc main_arg8)) := by
  dsimp only [V, hostOps0]
  after_results_simp
  rfl

set_option maxHeartbeats 4000000 in
/-- Cell 2. -/
theorem V_w2 (c : Dev nD) : (V (F := Ideal) m c main_v58 : S24x384.Idx → EReal) = wpadT (m ((c : Thread nD τ).loc main_arg9)) := by
  dsimp only [V, hostOps0]
  after_results_simp
  rfl

set_option maxHeartbeats 4000000 in
theorem V_b2 (c : Dev nD) : (V (F := Ideal) m c main_v70 : S1x384.Idx → EReal) = bpadT (m ((c : Thread nD τ).loc main_arg11)) (m ((c : Thread nD τ).loc main_arg12)) := by
  dsimp only [V, hostOps0]
  after_results_simp
  rfl

set_option maxHeartbeats 4000000 in
theorem V_n2 (c : Dev nD) : (V (F := Ideal) m c main_v71 : S1x24.Idx → EReal) = bhnT (m ((c : Thread nD τ).loc main_arg12)) := by
  dsimp only [V, hostOps0]
  after_results_simp
  rfl

set_option maxHeartbeats 4000000 in
/-- Cell 3. -/
theorem V_w3 (c : Dev nD) : (V (F := Ideal) m c main_v91 : S24x384.Idx → EReal) = wpadT (m ((c : Thread nD τ).loc main_arg13)) := by
  dsimp only [V, hostOps0]
  after_results_simp
  rfl

set_option maxHeartbeats 4000000 in
theorem V_b3 (c : Dev nD) : (V (F := Ideal) m c main_v103 : S1x384.Idx → EReal) = bpadT (m ((c : Thread nD τ).loc main_arg15)) (m ((c : Thread nD τ).loc main_arg16)) := by
  dsimp only [V, hostOps0]
  after_results_simp
  rfl

set_option maxHeartbeats 4000000 in
theorem V_n3 (c : Dev nD) : (V (F := Ideal) m c main_v104 : S1x24.Idx → EReal) = bhnT (m ((c : Thread nD τ).loc main_arg16)) := by
  dsimp only [V, hostOps0]
  after_results_simp
  rfl

end Cert.KernelIdeal.RegionEntry

end
-- ==== Proof.KernelValue.lean ====
/-
  The kernel's result array is the specification of the arguments.

  The region runs 32 grid points.  Point t stages rows 2048 t .. 2048 t + 2047 of x and writes the same rows
  of the result; every parameter window stages its whole array at every point.  So what point t writes back at
  (p, f) is the body's stored value for row 2048 t + p of x over the stored parameters, which is the
  specification's row function of that row over the arguments (the stored parameters being re-laid copies of
  them).  The 32 blocks tile the result's rows, so the array after the run is the specification everywhere.
-/
import proofs.«404537_j26465588478585_3_alg».proof.Proof.Gen.KernelIdeal.Value
import proofs.«404537_j26465588478585_3_alg».proof.Proof.GruSpec
import proofs.«404537_j26465588478585_3_alg».proof.Proof.KernelRow
import proofs.«404537_j26465588478585_3_alg».proof.Proof.HostLayout
import proofs.«404537_j26465588478585_3_alg».proof.Proof.RegionEntry
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Gru
open Cert.KernelIdeal.KRow Cert.KernelIdeal.HostLayout Cert.KernelIdeal.RegionEntry

variable (m : (ℓ : Loc nD τ sig) → Buf (Elt Ideal) ℓ) (ρ : Dev nD → PrngReg)

/-- The result array the specification gives for device c's arguments. -/
def Gm (c : Dev nD) : S65536x480.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12))
    (m ((c : Thread nD τ).loc main_arg13)) (m ((c : Thread nD τ).loc main_arg15)) (m ((c : Thread nD τ).loc main_arg16))

theorem hz : (![0, 0] : Fin 2 → Nat) = fun _ => 0 := funext fun a => by fin_cases a <;> rfl

/-! ## The printed index maps, decided over the 32 points -/

/-- The input and the result move down one block of rows per point. -/
theorem idx_x : ∀ t : Fin cfg0.N, win0_0.index t (0 : Fin 2) = t.val ∧ win0_0.index t (1 : Fin 2) = 0 :=
  (by decide +kernel : ∀ t : Fin grid0.N, _)
theorem idx_o : ∀ t : Fin cfg0.N, win0_14.index t (0 : Fin 2) = t.val ∧ win0_14.index t (1 : Fin 2) = 0 :=
  (by decide +kernel : ∀ t : Fin grid0.N, _)

/-- Every parameter window stays at block (0, 0). -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)

/-- Every block of result rows is some point's. -/
theorem idx_onto : ∀ q0 : Fin 32, ∃ t : Fin cfg0.N, win0_14.index t = ![q0.val, 0] :=
  (by decide +kernel : ∀ q0 : Fin 32, ∃ t : Fin grid0.N, win0_14.index t = ![q0.val, 0])

/-- There are 32 points. -/
theorem t_lt (t : Fin cfg0.N) : t.val < 32 := t.isLt

/-- Row p of point t's block is row 2048 t + p of the array. -/
def rowAt (t : Fin cfg0.N) (p : Fin 2048) : Fin 65536 :=
  ⟨t.val * 2048 + p.val, by have := t_lt t; have := p.isLt; omega⟩

/-! ## The windows' blocks at a point -/

/-- The input block at (p, k) is the argument at row 2048 t + p. -/
theorem blk0_apply (c : Dev nD) (t : Fin cfg0.N) (p : Fin 2048) (k : Fin 480) :
    iblk m c 0 t (ix2 p k) = (m ((c : Thread nD τ).loc main_arg0)) (ix2 (rowAt t p) k) := by
  obtain ⟨e0, e1⟩ := idx_x t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 480 + 1 * k.val = k.val; omega

/-- The result block's index (p, q) is the array's index (2048 t + p, q). -/
theorem emb14 (t : Fin cfg0.N) (p : Fin 2048) (q : Fin 480) :
    ((cfg0.win 14).blk t).view.emb (ix2 p q) = ix2 (rowAt t p) q := by
  obtain ⟨e0, e1⟩ := idx_o t
  refine funext fun a => Fin.ext ?_
  match a with
  | ⟨0, _⟩ => show win0_14.index t (0 : Fin 2) * 2048 + 1 * p.val = t.val * 2048 + p.val; omega
  | ⟨1, _⟩ => show win0_14.index t (1 : Fin 2) * 480 + 1 * q.val = q.val; omega

/-- Each parameter window's block is its whole array: the re-laid copy of the arguments found at region entry. -/
theorem blk1 (c : Dev nD) (t : Fin cfg0.N) : (iblk m c 1 t : S480x24.Idx → EReal) = winT (m ((c : Thread nD τ).loc main_arg1)) := by
  rw [← V_win m c]
  obtain ⟨e0, e1⟩ := idx1 t
  funext y
  show V m c main_v1 (((cfg0.win 1).blk t).view.emb y) = V m c main_v1 y
  refine congrArg _ (funext fun a => Fin.ext ?_)
  match a with
  | ⟨0, _⟩ => show win0_1.index t (0 : Fin 2) * 480 + 1 * (y 0).val = (y 0).val; omega
  | ⟨1, _⟩ => show win0_1.index t (1 : Fin 2) * 24 + 1 * (y 1).val = (y 1).val; omega

theorem blk2 (c : Dev nD) (t : Fin cfg0.N) : (iblk m c 2 t : S1x24.Idx → EReal) = row24 (m ((c : Thread nD τ).loc main_arg2)) := by
  rw [← V_bin m c]
  obtain ⟨e0, e1⟩ := idx2 t
  funext y
  show V m c main_v2 (((cfg0.win 2).blk t).view.emb y) = V m c main_v2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 24 + 1 * (y 1).val = (y 1).val; omega

theorem blk3 (c : Dev nD) (t : Fin cfg0.N) : (iblk m c 3 t : S24x480.Idx → EReal) = woutT (m ((c : Thread nD τ).loc main_arg3)) := by
  rw [← V_wout m c]
  obtain ⟨e0, e1⟩ := idx3 t
  funext y
  show V m c main_v4 (((cfg0.win 3).blk t).view.emb y) = V m c main_v4 y
  refine congrArg _ (funext fun a => Fin.ext ?_)
  match a with
  | ⟨0, _⟩ => show win0_3.index t (0 : Fin 2) * 24 + 1 * (y 0).val = (y 0).val; omega
  | ⟨1, _⟩ => show win0_3.index t (1 : Fin 2) * 480 + 1 * (y 1).val = (y 1).val; omega

theorem blk4 (c : Dev nD) (t : Fin cfg0.N) : (iblk m c 4 t : S1x480.Idx → EReal) = row480 (m ((c : Thread nD τ).loc main_arg4)) := by
  rw [← V_bout m c]
  obtain ⟨e0, e1⟩ := idx4 t
  funext y
  show V m c main_v5 (((cfg0.win 4).blk t).view.emb y) = V m c main_v5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 480 + 1 * (y 1).val = (y 1).val; omega

theorem blk5 (c : Dev nD) (t : Fin cfg0.N) : (iblk m c 5 t : S24x384.Idx → EReal) = wpadT (m ((c : Thread nD τ).loc main_arg5)) := by
  rw [← V_w1 m c]
  obtain ⟨e0, e1⟩ := idx5 t
  funext y
  show V m c main_v25 (((cfg0.win 5).blk t).view.emb y) = V m c main_v25 y
  refine congrArg _ (funext fun a => Fin.ext ?_)
  match a with
  | ⟨0, _⟩ => show win0_5.index t (0 : Fin 2) * 24 + 1 * (y 0).val = (y 0).val; omega
  | ⟨1, _⟩ => show win0_5.index t (1 : Fin 2) * 384 + 1 * (y 1).val = (y 1).val; omega

theorem blk6 (c : Dev nD) (t : Fin cfg0.N) : (iblk m c 6 t : S1x384.Idx → EReal) = bpadT (m ((c : Thread nD τ).loc main_arg7)) (m ((c : Thread nD τ).loc main_arg8)) := by
  rw [← V_b1 m c]
  obtain ⟨e0, e1⟩ := idx6 t
  funext y
  show V m c main_v37 (((cfg0.win 6).blk t).view.emb y) = V m c main_v37 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 384 + 1 * (y 1).val = (y 1).val; omega

theorem blk7 (c : Dev nD) (t : Fin cfg0.N) : (iblk m c 7 t : S1x24.Idx → EReal) = bhnT (m ((c : Thread nD τ).loc main_arg8)) := by
  rw [← V_n1 m c]
  obtain ⟨e0, e1⟩ := idx7 t
  funext y
  show V m c main_v38 (((cfg0.win 7).blk t).view.emb y) = V m c main_v38 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 24 + 1 * (y 1).val = (y 1).val; omega

theorem blk8 (c : Dev nD) (t : Fin cfg0.N) : (iblk m c 8 t : S24x384.Idx → EReal) = wpadT (m ((c : Thread nD τ).loc main_arg9)) := by
  rw [← V_w2 m c]
  obtain ⟨e0, e1⟩ := idx8 t
  funext y
  show V m c main_v58 (((cfg0.win 8).blk t).view.emb y) = V m c main_v58 y
  refine congrArg _ (funext fun a => Fin.ext ?_)
  match a with
  | ⟨0, _⟩ => show win0_8.index t (0 : Fin 2) * 24 + 1 * (y 0).val = (y 0).val; omega
  | ⟨1, _⟩ => show win0_8.index t (1 : Fin 2) * 384 + 1 * (y 1).val = (y 1).val; omega

theorem blk9 (c : Dev nD) (t : Fin cfg0.N) : (iblk m c 9 t : S1x384.Idx → EReal) = bpadT (m ((c : Thread nD τ).loc main_arg11)) (m ((c : Thread nD τ).loc main_arg12)) := by
  rw [← V_b2 m c]
  obtain ⟨e0, e1⟩ := idx9 t
  funext y
  show V m c main_v70 (((cfg0.win 9).blk t).view.emb y) = V m c main_v70 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 384 + 1 * (y 1).val = (y 1).val; omega

theorem blk10 (c : Dev nD) (t : Fin cfg0.N) : (iblk m c 10 t : S1x24.Idx → EReal) = bhnT (m ((c : Thread nD τ).loc main_arg12)) := by
  rw [← V_n2 m c]
  obtain ⟨e0, e1⟩ := idx10 t
  funext y
  show V m c main_v71 (((cfg0.win 10).blk t).view.emb y) = V m c main_v71 y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 24 + 1 * (y 1).val = (y 1).val; omega

theorem blk11 (c : Dev nD) (t : Fin cfg0.N) : (iblk m c 11 t : S24x384.Idx → EReal) = wpadT (m ((c : Thread nD τ).loc main_arg13)) := by
  rw [← V_w3 m c]
  obtain ⟨e0, e1⟩ := idx11 t
  funext y
  show V m c main_v91 (((cfg0.win 11).blk t).view.emb y) = V m c main_v91 y
  refine congrArg _ (funext fun a => Fin.ext ?_)
  match a with
  | ⟨0, _⟩ => show win0_11.index t (0 : Fin 2) * 24 + 1 * (y 0).val = (y 0).val; omega
  | ⟨1, _⟩ => show win0_11.index t (1 : Fin 2) * 384 + 1 * (y 1).val = (y 1).val; omega

theorem blk12 (c : Dev nD) (t : Fin cfg0.N) : (iblk m c 12 t : S1x384.Idx → EReal) = bpadT (m ((c : Thread nD τ).loc main_arg15)) (m ((c : Thread nD τ).loc main_arg16)) := by
  rw [← V_b3 m c]
  obtain ⟨e0, e1⟩ := idx12 t
  funext y
  show V m c main_v103 (((cfg0.win 12).blk t).view.emb y) = V m c main_v103 y
  refine congrArg _ (funext fun a => Fin.ext ?_)
  match a with
  | ⟨0, _⟩ => show win0_12.index t (0 : Fin 2) * 1 + 1 * (y 0).val = (y 0).val; omega
  | ⟨1, _⟩ => show win0_12.index t (1 : Fin 2) * 384 + 1 * (y 1).val = (y 1).val; omega

theorem blk13 (c : Dev nD) (t : Fin cfg0.N) : (iblk m c 13 t : S1x24.Idx → EReal) = bhnT (m ((c : Thread nD τ).loc main_arg16)) := by
  rw [← V_n3 m c]
  obtain ⟨e0, e1⟩ := idx13 t
  funext y
  show V m c main_v104 (((cfg0.win 13).blk t).view.emb y) = V m c main_v104 y
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 24 + 1 * (y 1).val = (y 1).val; omega

/-! ## What a point writes back -/

/-- WHAT POINT t WRITES BACK is block t of the specification of the arguments. -/
theorem flushed_eq (c : Dev nD) (t : Fin cfg0.N) :
    (dats m 0 c).flushed 14 t = ((cfg0.win 14).blk t).view.read (Elt Ideal) (Gm m c) := by
  rw [Value.flushed14]
  unfold out0_14
  rw [View.canon_unit_zero hz]
  simp only [View.ld_unit_zero (S := S2048x480) hz, View.ld_unit_zero (S := S480x24) hz, View.ld_unit_zero (S := S1x24) hz,
    View.ld_unit_zero (S := S24x480) hz, View.ld_unit_zero (S := S1x480) hz, View.ld_unit_zero (S := S24x384) hz,
    View.ld_unit_zero (S := S1x384) hz]
  funext j
  obtain ⟨p, q, rfl⟩ : ∃ (p : Fin 2048) (q : Fin 480), j = ix2 p q := ⟨j 0, j 1, eq_ix2 j⟩
  show k0_pay1 (F := Ideal) (iblk m c 0 t)
      (k0_pay3 (F := Ideal)
        (k0_pay2 (F := Ideal) (iblk m c 0 t) (iblk m c 1 t) (iblk m c 2 t) (iblk m c 5 t) (iblk m c 6 t) (iblk m c 7 t) (iblk m c 8 t) (iblk m c 9 t))
        (iblk m c 10 t) (iblk m c 11 t) (iblk m c 12 t) (iblk m c 13 t) (iblk m c 3 t))
      (iblk m c 4 t) (ix2 p q)
    = Gm m c (((cfg0.win 14).blk t).view.emb (ix2 p q))
  rw [emb14 t p q]
  refine (payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) p q).trans ?_
  rw [blk1 m c t, blk2 m c t, blk3 m c t, blk4 m c t, blk5 m c t, blk6 m c t, blk7 m c t, blk8 m c t, blk9 m c t,
    blk10 m c t, blk11 m c t, blk12 m c t, blk13 m c t]
  refine (krow_eq_outRow _ (fun k j => winT_apply _ k j) (fun j => row24_apply _ j) (fun k f => woutT_apply _ k f)
    (fun f => row480_apply _ f) (padded _ _ _) (padded _ _ _) (padded _ _ _) q).trans ?_
  have hx : mat (iblk m c 0 t) p = mat (m ((c : Thread nD τ).loc main_arg0)) (rowAt t p) := funext fun k => blk0_apply m c t p k
  rw [hx]
  rfl

/-! ## The blocks tile the result -/

/-- An index is in point t's block iff each coordinate is in the block's range on its axis. -/
theorem mem_blk (t : Fin cfg0.N) (i : S65536x480.Idx) :
    i ∈ ((cfg0.win 14).blk t).view.set ↔ ∀ a : Fin 2, win0_14.index t a * S2048x480.size a ≤ (i a).val
      ∧ (i a).val < win0_14.index t a * S2048x480.size a + S2048x480.size a := by
  show i ∈ ((View.whole main_v105).slice (win0_14.rect t)).set ↔ _
  rw [View.set_slice_whole, Rect.mem_set_unit]
  exact Iff.rfl

/-- Every index of the result is in some point's block: row r is in block r / 2048. -/
theorem cover (i : S65536x480.Idx) :
    ∃ t : Fin cfg0.N, (cfg0.win 14).flush t = true ∧ i ∈ ((cfg0.win 14).blk t).view.set := by
  have hi0 : (i 0).val < 65536 := (i 0).isLt
  have hi1 : (i 1).val < 480 := (i 1).isLt
  obtain ⟨t, ht⟩ := idx_onto ⟨(i 0).val / 2048, by omega⟩
  have q0 : win0_14.index t (0 : Fin 2) = (i 0).val / 2048 := congrFun ht 0
  have q1 : win0_14.index t (1 : Fin 2) = 0 := congrFun ht 1
  refine ⟨t, flush0_14 t, ?_⟩
  rw [mem_blk]
  intro a
  match a with
  | ⟨0, _⟩ =>
    show win0_14.index t (0 : Fin 2) * 2048 ≤ (i 0).val ∧ (i 0).val < win0_14.index t (0 : Fin 2) * 2048 + 2048
    omega
  | ⟨1, _⟩ =>
    show win0_14.index t (1 : Fin 2) * 480 ≤ (i 1).val ∧ (i 1).val < win0_14.index t (1 : Fin 2) * 480 + 480
    omega

/-- THE RESULT ARRAY after the run is the specification of the arguments. -/
theorem final (c : Dev nD) : (dats m 0 c).arrAt 14 cfg0.N = Gm m c :=
  (dats m 0 c).arrAt_eq_of_cover 14 (Gm m c) (fun t _ => flushed_eq m c t) cover

end Cert.KernelIdeal.KValue

end
-- ==== Proof.RefValue.lean ====
/-
  The reference program's result is the specification.

  The reference computes, for every batch row, an affine map to 24 features, three gated cells from the zero
  state and an affine map back whose logistic gates the row. Each operation's value is read at one index from
  its operands; the reads are composed layer by layer: the first affine map, each cell (its three stacked
  pre-activations are one affine map read at the stacked columns 0 + j, 24 + j, 48 + j, and the host's
  1 / (1 + exp (-a)) with the word of 1 is the logistic), and the gated output. Every index function of a
  transpose, a broadcast or a slice is evaluated at an index given by its coordinates.
-/
import proofs.«404537_j26465588478585_3_alg».proof.Proof.Gen.ReferenceIdeal.Read
import proofs.«404537_j26465588478585_3_alg».proof.Proof.GruSpec
import Idealize.ShloMosaic.Lib.ValueIdx
import Idealize.ShloMosaic.Lib.IdealHost
import Idealize.ShloMosaic.PureOps.Ideal

open scoped BigOperators

noncomputable section

namespace Cert.ReferenceIdeal.RefValue

open Cert.ReferenceIdeal Cert.ReferenceIdeal.Read Idealize.ShloMosaic Idealize.ShloMosaic.ValueIdx

/-- Two rank-2 indices with the same two coordinates are equal. -/
theorem idx2_ext {n0 n1 : Nat} {f g : (⟨2, ![n0, n1]⟩ : Shape).Idx}
    (h0 : f ⟨0, Nat.zero_lt_two⟩ = g ⟨0, Nat.zero_lt_two⟩) (h1 : f ⟨1, Nat.one_lt_two⟩ = g ⟨1, Nat.one_lt_two⟩) : f = g :=
  funext fun a => match a with | ⟨0, _⟩ => h0 | ⟨1, _⟩ => h1

/-- Two rank-1 indices with the same coordinate are equal. -/
theorem idx1_ext {n : Nat} {f g : (⟨1, ![n]⟩ : Shape).Idx} (h0 : f ⟨0, Nat.one_pos⟩ = g ⟨0, Nat.one_pos⟩) : f = g :=
  funext fun a => match a with | ⟨0, _⟩ => h0

/-- The cell as the host spells it: each logistic written 1 / (1 + exp (-a)) with the word of 1. -/
theorem host_cell (inp : Fin 24 → EReal) (W : Fin 72 → Fin 24 → EReal) (bi bh : Fin 72 → EReal) (j : Fin 24) :
    (Cert.Gru.oneW - Ideal.div Cert.Gru.oneW (Cert.Gru.oneW + Ideal.exp (-(Cert.Gru.affine inp W bi (Cert.Gru.gate 24 (by omega) j) + bh (Cert.Gru.gate 24 (by omega) j)))))
      * Ideal.tanh (Cert.Gru.affine inp W bi (Cert.Gru.gate 48 (by omega) j)
          + Ideal.div Cert.Gru.oneW (Cert.Gru.oneW + Ideal.exp (-(Cert.Gru.affine inp W bi (Cert.Gru.gate 0 (by omega) j) + bh (Cert.Gru.gate 0 (by omega) j))))
            * bh (Cert.Gru.gate 48 (by omega) j))
      = Cert.Gru.cell inp W bi bh j := by
  unfold Cert.Gru.cell Ideal.logistic
  rw [show (Cert.Gru.oneW : EReal) = 1 from Ideal.ofBits_one_f32]

variable (x0 : (⟨S65536x480, .f32⟩ : BufTy).Contents (Elt Ideal)) (x1 : (⟨S24x480, .f32⟩ : BufTy).Contents (Elt Ideal))
  (x2 : (⟨S24, .f32⟩ : BufTy).Contents (Elt Ideal)) (x3 : (⟨S480x24, .f32⟩ : BufTy).Contents (Elt Ideal))
  (x4 : (⟨S480, .f32⟩ : BufTy).Contents (Elt Ideal)) (x5 : (⟨S72x24, .f32⟩ : BufTy).Contents (Elt Ideal))
  (x7 x8 : (⟨S72, .f32⟩ : BufTy).Contents (Elt Ideal)) (x9 : (⟨S72x24, .f32⟩ : BufTy).Contents (Elt Ideal))
  (x11 x12 : (⟨S72, .f32⟩ : BufTy).Contents (Elt Ideal)) (x13 : (⟨S72x24, .f32⟩ : BufTy).Contents (Elt Ideal))
  (x15 x16 : (⟨S72, .f32⟩ : BufTy).Contents (Elt Ideal))

/-! ## The first affine map -/

/-- Row b of x through W_in and b_in, entry j. -/
theorem feat_apply (b : Fin 65536) (j : Fin 24) :
    val_main_v4 (F := Ideal) x0 x1 x2 (ix2 b j)
      = Cert.Gru.affine (Cert.Gru.mat x0 b) (Cert.Gru.mat x1) (Cert.Gru.vec x2) j := by
  rw [val_main_v4_apply, val_main_v1_apply, val_main_v3_apply, val_main_v2_apply, Ideal.addf_def]
  simp only [val_main_v0_apply]
  unfold Cert.Gru.affine Cert.Gru.mat Cert.Gru.vec
  exact congrArg₂ (· + ·)
    (Finset.sum_congr rfl fun k _ => congrArg₂ (· * ·) (congrArg x0 (idx2_ext rfl rfl)) (congrArg x1 (idx2_ext rfl rfl)))
    (congrArg x2 (idx1_ext rfl))

/-! ## The first cell -/

/-- The first cell's three stacked pre-activations: row b, stacked column g. -/
theorem gi1_apply (b : Fin 65536) (g : Fin 72) :
    val_main_v9 (F := Ideal) x0 x1 x2 x5 x7 (ix2 b g)
      = Cert.Gru.affine (fun k => val_main_v4 (F := Ideal) x0 x1 x2 (ix2 b k)) (Cert.Gru.mat x5) (Cert.Gru.vec x7) g := by
  rw [val_main_v9_apply, val_main_v6_apply, val_main_v8_apply, val_main_v7_apply, Ideal.addf_def]
  simp only [val_main_v5_apply]
  unfold Cert.Gru.affine Cert.Gru.mat Cert.Gru.vec
  exact congrArg₂ (· + ·)
    (Finset.sum_congr rfl fun k _ => congrArg₂ (· * ·)
      (congrArg (val_main_v4 (F := Ideal) x0 x1 x2) (idx2_ext rfl rfl)) (congrArg x5 (idx2_ext rfl rfl)))
    (congrArg x7 (idx1_ext rfl))

/-- The first cell's new state, row b, entry j, from the first affine map's row. -/
theorem cell1_apply (b : Fin 65536) (j : Fin 24) :
    val_main_v41 (F := Ideal) x0 x1 x2 x5 x7 x8 (ix2 b j)
      = Cert.Gru.cell (fun k => val_main_v4 (F := Ideal) x0 x1 x2 (ix2 b k)) (Cert.Gru.mat x5) (Cert.Gru.vec x7) (Cert.Gru.vec x8) j := by
  simp only [val_main_v41_apply, val_main_v40_apply, val_main_v39_apply, val_main_cst_3_apply, val_main_v38_apply,
    val_main_v37_apply, val_main_v36_apply, val_main_v35_apply, val_main_v34_apply, val_main_v15_apply,
    val_main_v33_apply, val_main_v32_apply, val_main_cst_2_apply, val_main_v31_apply, val_main_v30_apply, val_main_cst_1_apply,
    val_main_v29_apply, val_main_v28_apply, val_main_v27_apply, val_main_v26_apply, val_main_v25_apply, val_main_v14_apply,
    val_main_v24_apply, val_main_v23_apply, val_main_cst_0_apply, val_main_v22_apply, val_main_v21_apply, val_main_cst_apply,
    val_main_v20_apply, val_main_v19_apply, val_main_v18_apply, val_main_v17_apply, val_main_v16_apply, val_main_v13_apply,
    val_main_v12_apply, val_main_v11_apply, val_main_v10_apply]
  rw [show idx_main_v10 (ix2 b j) = ix2 b (Cert.Gru.gate 0 (by omega) j) from idx2_ext rfl (Fin.ext (Nat.zero_add _).symm),
    show idx_main_v11 (ix2 b j) = ix2 b (Cert.Gru.gate 24 (by omega) j) from idx2_ext rfl rfl,
    show idx_main_v12 (ix2 b j) = ix2 b (Cert.Gru.gate 48 (by omega) j) from idx2_ext rfl rfl,
    show idx_main_v13 (idx_main_v16 (idx_main_v17 (ix2 b j))) = ix1 (Cert.Gru.gate 0 (by omega) j) from idx1_ext (Fin.ext (Nat.zero_add _).symm),
    show idx_main_v14 (idx_main_v25 (idx_main_v26 (ix2 b j))) = ix1 (Cert.Gru.gate 24 (by omega) j) from idx1_ext rfl,
    show idx_main_v15 (idx_main_v34 (idx_main_v35 (ix2 b j))) = ix1 (Cert.Gru.gate 48 (by omega) j) from idx1_ext rfl,
    gi1_apply, gi1_apply, gi1_apply]
  simp only [Ideal.mulf_def, Ideal.subf_def, Ideal.addf_def, Ideal.hostDivf_def, Ideal.hostUnary_exp_def,
    Ideal.hostUnary_tanh_def, Ideal.hostNegf_def, Ideal.negf_def, Ideal.ofBits_def]
  exact host_cell (fun k => val_main_v4 (F := Ideal) x0 x1 x2 (ix2 b k)) (Cert.Gru.mat x5) (Cert.Gru.vec x7) (Cert.Gru.vec x8) j

/-! ## The second cell -/

/-- The second cell's three stacked pre-activations: row b, stacked column g. -/
theorem gi2_apply (b : Fin 65536) (g : Fin 72) :
    val_main_v46 (F := Ideal) x0 x1 x2 x5 x7 x8 x9 x11 (ix2 b g)
      = Cert.Gru.affine (fun k => val_main_v41 (F := Ideal) x0 x1 x2 x5 x7 x8 (ix2 b k)) (Cert.Gru.mat x9) (Cert.Gru.vec x11) g := by
  rw [val_main_v46_apply, val_main_v43_apply, val_main_v45_apply, val_main_v44_apply, Ideal.addf_def]
  simp only [val_main_v42_apply]
  unfold Cert.Gru.affine Cert.Gru.mat Cert.Gru.vec
  exact congrArg₂ (· + ·)
    (Finset.sum_congr rfl fun k _ => congrArg₂ (· * ·)
      (congrArg (val_main_v41 (F := Ideal) x0 x1 x2 x5 x7 x8) (idx2_ext rfl rfl)) (congrArg x9 (idx2_ext rfl rfl)))
    (congrArg x11 (idx1_ext rfl))

/-- The second cell's new state, row b, entry j, from the first cell's row. -/
theorem cell2_apply (b : Fin 65536) (j : Fin 24) :
    val_main_v78 (F := Ideal) x0 x1 x2 x5 x7 x8 x9 x11 x12 (ix2 b j)
      = Cert.Gru.cell (fun k => val_main_v41 (F := Ideal) x0 x1 x2 x5 x7 x8 (ix2 b k)) (Cert.Gru.mat x9) (Cert.Gru.vec x11) (Cert.Gru.vec x12) j := by
  simp only [val_main_v78_apply, val_main_v77_apply, val_main_v76_apply, val_main_cst_8_apply, val_main_v75_apply,
    val_main_v74_apply, val_main_v73_apply, val_main_v72_apply, val_main_v71_apply, val_main_v52_apply,
    val_main_v70_apply, val_main_v69_apply, val_main_cst_7_apply, val_main_v68_apply, val_main_v67_apply, val_main_cst_6_apply,
    val_main_v66_apply, val_main_v65_apply, val_main_v64_apply, val_main_v63_apply, val_main_v62_apply, val_main_v51_apply,
    val_main_v61_apply, val_main_v60_apply, val_main_cst_5_apply, val_main_v59_apply, val_main_v58_apply, val_main_cst_4_apply,
    val_main_v57_apply, val_main_v56_apply, val_main_v55_apply, val_main_v54_apply, val_main_v53_apply, val_main_v50_apply,
    val_main_v49_apply, val_main_v48_apply, val_main_v47_apply]
  rw [show idx_main_v47 (ix2 b j) = ix2 b (Cert.Gru.gate 0 (by omega) j) from idx2_ext rfl (Fin.ext (Nat.zero_add _).symm),
    show idx_main_v48 (ix2 b j) = ix2 b (Cert.Gru.gate 24 (by omega) j) from idx2_ext rfl rfl,
    show idx_main_v49 (ix2 b j) = ix2 b (Cert.Gru.gate 48 (by omega) j) from idx2_ext rfl rfl,
    show idx_main_v50 (idx_main_v53 (idx_main_v54 (ix2 b j))) = ix1 (Cert.Gru.gate 0 (by omega) j) from idx1_ext (Fin.ext (Nat.zero_add _).symm),
    show idx_main_v51 (idx_main_v62 (idx_main_v63 (ix2 b j))) = ix1 (Cert.Gru.gate 24 (by omega) j) from idx1_ext rfl,
    show idx_main_v52 (idx_main_v71 (idx_main_v72 (ix2 b j))) = ix1 (Cert.Gru.gate 48 (by omega) j) from idx1_ext rfl,
    gi2_apply, gi2_apply, gi2_apply]
  simp only [Ideal.mulf_def, Ideal.subf_def, Ideal.addf_def, Ideal.hostDivf_def, Ideal.hostUnary_exp_def,
    Ideal.hostUnary_tanh_def, Ideal.hostNegf_def, Ideal.negf_def, Ideal.ofBits_def]
  exact host_cell (fun k => val_main_v41 (F := Ideal) x0 x1 x2 x5 x7 x8 (ix2 b k)) (Cert.Gru.mat x9) (Cert.Gru.vec x11) (Cert.Gru.vec x12) j

/-! ## The third cell -/

/-- The third cell's three stacked pre-activations: row b, stacked column g. -/
theorem gi3_apply (b : Fin 65536) (g : Fin 72) :
    val_main_v83 (F := Ideal) x0 x1 x2 x5 x7 x8 x9 x11 x12 x13 x15 (ix2 b g)
      = Cert.Gru.affine (fun k => val_main_v78 (F := Ideal) x0 x1 x2 x5 x7 x8 x9 x11 x12 (ix2 b k)) (Cert.Gru.mat x13) (Cert.Gru.vec x15) g := by
  rw [val_main_v83_apply, val_main_v80_apply, val_main_v82_apply, val_main_v81_apply, Ideal.addf_def]
  simp only [val_main_v79_apply]
  unfold Cert.Gru.affine Cert.Gru.mat Cert.Gru.vec
  exact congrArg₂ (· + ·)
    (Finset.sum_congr rfl fun k _ => congrArg₂ (· * ·)
      (congrArg (val_main_v78 (F := Ideal) x0 x1 x2 x5 x7 x8 x9 x11 x12) (idx2_ext rfl rfl)) (congrArg x13 (idx2_ext rfl rfl)))
    (congrArg x15 (idx1_ext rfl))

/-- The third cell's new state, row b, entry j, from the second cell's row. -/
theorem cell3_apply (b : Fin 65536) (j : Fin 24) :
    val_main_v115 (F := Ideal) x0 x1 x2 x5 x7 x8 x9 x11 x12 x13 x15 x16 (ix2 b j)
      = Cert.Gru.cell (fun k => val_main_v78 (F := Ideal) x0 x1 x2 x5 x7 x8 x9 x11 x12 (ix2 b k)) (Cert.Gru.mat x13) (Cert.Gru.vec x15) (Cert.Gru.vec x16) j := by
  simp only [val_main_v115_apply, val_main_v114_apply, val_main_v113_apply, val_main_cst_13_apply, val_main_v112_apply,
    val_main_v111_apply, val_main_v110_apply, val_main_v109_apply, val_main_v108_apply, val_main_v89_apply,
    val_main_v107_apply, val_main_v106_apply, val_main_cst_12_apply, val_main_v105_apply, val_main_v104_apply, val_main_cst_11_apply,
    val_main_v103_apply, val_main_v102_apply, val_main_v101_apply, val_main_v100_apply, val_main_v99_apply, val_main_v88_apply,
    val_main_v98_apply, val_main_v97_apply, val_main_cst_10_apply, val_main_v96_apply, val_main_v95_apply, val_main_cst_9_apply,
    val_main_v94_apply, val_main_v93_apply, val_main_v92_apply, val_main_v91_apply, val_main_v90_apply, val_main_v87_apply,
    val_main_v86_apply, val_main_v85_apply, val_main_v84_apply]
  rw [show idx_main_v84 (ix2 b j) = ix2 b (Cert.Gru.gate 0 (by omega) j) from idx2_ext rfl (Fin.ext (Nat.zero_add _).symm),
    show idx_main_v85 (ix2 b j) = ix2 b (Cert.Gru.gate 24 (by omega) j) from idx2_ext rfl rfl,
    show idx_main_v86 (ix2 b j) = ix2 b (Cert.Gru.gate 48 (by omega) j) from idx2_ext rfl rfl,
    show idx_main_v87 (idx_main_v90 (idx_main_v91 (ix2 b j))) = ix1 (Cert.Gru.gate 0 (by omega) j) from idx1_ext (Fin.ext (Nat.zero_add _).symm),
    show idx_main_v88 (idx_main_v99 (idx_main_v100 (ix2 b j))) = ix1 (Cert.Gru.gate 24 (by omega) j) from idx1_ext rfl,
    show idx_main_v89 (idx_main_v108 (idx_main_v109 (ix2 b j))) = ix1 (Cert.Gru.gate 48 (by omega) j) from idx1_ext rfl,
    gi3_apply, gi3_apply, gi3_apply]
  simp only [Ideal.mulf_def, Ideal.subf_def, Ideal.addf_def, Ideal.hostDivf_def, Ideal.hostUnary_exp_def,
    Ideal.hostUnary_tanh_def, Ideal.hostNegf_def, Ideal.negf_def, Ideal.ofBits_def]
  exact host_cell (fun k => val_main_v78 (F := Ideal) x0 x1 x2 x5 x7 x8 x9 x11 x12 (ix2 b k)) (Cert.Gru.mat x13) (Cert.Gru.vec x15) (Cert.Gru.vec x16) j

/-! ## The gated output -/

/-- The last affine map: the third cell's row through W_out and b_out, feature f. -/
theorem go_apply (b : Fin 65536) (f : Fin 480) :
    val_main_v120 (F := Ideal) x0 x1 x2 x3 x4 x5 x7 x8 x9 x11 x12 x13 x15 x16 (ix2 b f)
      = Cert.Gru.affine (fun k => val_main_v115 (F := Ideal) x0 x1 x2 x5 x7 x8 x9 x11 x12 x13 x15 x16 (ix2 b k)) (Cert.Gru.mat x3) (Cert.Gru.vec x4) f := by
  rw [val_main_v120_apply, val_main_v117_apply, val_main_v119_apply, val_main_v118_apply, Ideal.addf_def]
  simp only [val_main_v116_apply]
  unfold Cert.Gru.affine Cert.Gru.mat Cert.Gru.vec
  exact congrArg₂ (· + ·)
    (Finset.sum_congr rfl fun k _ => congrArg₂ (· * ·)
      (congrArg (val_main_v115 (F := Ideal) x0 x1 x2 x5 x7 x8 x9 x11 x12 x13 x15 x16) (idx2_ext rfl rfl)) (congrArg x3 (idx2_ext rfl rfl)))
    (congrArg x4 (idx1_ext rfl))

/-- The result, row b, feature f: the row's entry times the logistic of the last affine map. -/
theorem out_apply (b : Fin 65536) (f : Fin 480) :
    val_main_v127 (F := Ideal) x0 x1 x2 x3 x4 x5 x7 x8 x9 x11 x12 x13 x15 x16 (ix2 b f)
      = Cert.Gru.mat x0 b f * Ideal.logistic
          (Cert.Gru.affine (fun k => val_main_v115 (F := Ideal) x0 x1 x2 x5 x7 x8 x9 x11 x12 x13 x15 x16 (ix2 b k)) (Cert.Gru.mat x3) (Cert.Gru.vec x4) f) := by
  simp only [val_main_v127_apply, val_main_v126_apply, val_main_v125_apply, val_main_cst_15_apply, val_main_v124_apply,
    val_main_v123_apply, val_main_cst_14_apply, val_main_v122_apply, val_main_v121_apply]
  rw [go_apply]
  simp only [Ideal.mulf_def, Ideal.addf_def, Ideal.hostDivf_def, Ideal.hostUnary_exp_def, Ideal.hostNegf_def,
    Ideal.negf_def, Ideal.ofBits_def, Ideal.ofBits_one_f32]
  rfl

/-! ## The whole result -/

/-- The reference's result is the specification. -/
theorem ref_is_G (x0 : (⟨S65536x480, .f32⟩ : BufTy).Contents (Elt Ideal)) (x1 : (⟨S24x480, .f32⟩ : BufTy).Contents (Elt Ideal)) (x2 : (⟨S24, .f32⟩ : BufTy).Contents (Elt Ideal)) (x3 : (⟨S480x24, .f32⟩ : BufTy).Contents (Elt Ideal)) (x4 : (⟨S480, .f32⟩ : BufTy).Contents (Elt Ideal)) (x5 : (⟨S72x24, .f32⟩ : BufTy).Contents (Elt Ideal)) (x7 x8 : (⟨S72, .f32⟩ : BufTy).Contents (Elt Ideal)) (x9 : (⟨S72x24, .f32⟩ : BufTy).Contents (Elt Ideal)) (x11 x12 : (⟨S72, .f32⟩ : BufTy).Contents (Elt Ideal)) (x13 : (⟨S72x24, .f32⟩ : BufTy).Contents (Elt Ideal)) (x15 x16 : (⟨S72, .f32⟩ : BufTy).Contents (Elt Ideal)) :
    Cert.ReferenceIdeal.Read.val_main_v127 (F := Ideal) x0 x1 x2 x3 x4 x5 x7 x8 x9 x11 x12 x13 x15 x16
      = Cert.Gru.G x0 x1 x2 x3 x4 x5 x7 x8 x9 x11 x12 x13 x15 x16 := by
  funext i
  obtain ⟨b, f, rfl⟩ : ∃ (b : Fin 65536) (f : Fin 480), i = ix2 b f := ⟨i 0, i 1, eq_ix2 i⟩
  have h0 : (fun k => val_main_v4 (F := Ideal) x0 x1 x2 (ix2 b k))
      = Cert.Gru.affine (Cert.Gru.mat x0 b) (Cert.Gru.mat x1) (Cert.Gru.vec x2) := funext (feat_apply x0 x1 x2 b)
  have h1 : (fun k => val_main_v41 (F := Ideal) x0 x1 x2 x5 x7 x8 (ix2 b k))
      = Cert.Gru.cell (Cert.Gru.affine (Cert.Gru.mat x0 b) (Cert.Gru.mat x1) (Cert.Gru.vec x2))
          (Cert.Gru.mat x5) (Cert.Gru.vec x7) (Cert.Gru.vec x8) := by
    funext k; rw [cell1_apply, h0]
  have h2 : (fun k => val_main_v78 (F := Ideal) x0 x1 x2 x5 x7 x8 x9 x11 x12 (ix2 b k))
      = Cert.Gru.cell (Cert.Gru.cell (Cert.Gru.affine (Cert.Gru.mat x0 b) (Cert.Gru.mat x1) (Cert.Gru.vec x2))
          (Cert.Gru.mat x5) (Cert.Gru.vec x7) (Cert.Gru.vec x8)) (Cert.Gru.mat x9) (Cert.Gru.vec x11) (Cert.Gru.vec x12) := by
    funext k; rw [cell2_apply, h1]
  have h3 : (fun k => val_main_v115 (F := Ideal) x0 x1 x2 x5 x7 x8 x9 x11 x12 x13 x15 x16 (ix2 b k))
      = Cert.Gru.cell (Cert.Gru.cell (Cert.Gru.cell (Cert.Gru.affine (Cert.Gru.mat x0 b) (Cert.Gru.mat x1) (Cert.Gru.vec x2))
          (Cert.Gru.mat x5) (Cert.Gru.vec x7) (Cert.Gru.vec x8)) (Cert.Gru.mat x9) (Cert.Gru.vec x11) (Cert.Gru.vec x12))
          (Cert.Gru.mat x13) (Cert.Gru.vec x15) (Cert.Gru.vec x16) := by
    funext k; rw [cell3_apply, h2]
  rw [Cert.Gru.G_apply, out_apply, h3]
  rfl

end Cert.ReferenceIdeal.RefValue

end
-- ==== Proof.lean ====
/-
  A three-cell gated recurrent cascade from the zero state, between a [480 -> 24] projection and a
  [24 -> 480] projection whose logistic gates the input row: the kernel against the plain formula.

  Both programs compute, for every batch row x, x * σ(h₃ W_outᵀ + b_out) with h₀ = x W_inᵀ + b_in and
  h_{l+1} = (1 - σ z) * tanh (n + σ r * b_hh,n), where (r, z, n) are the three 24-wide gates of
  h_l W_ihᵀ + b_ih and r, z also take their hidden bias.  The kernel works on blocks of 2048 rows with
  the parameters re-laid by the host beforehand (projections transposed, each cell's three gates in lanes
  0, 128 and 256 of one [24, 384] weight, the reset and update gates' two biases summed into one row);
  the reference is the formula itself, its logistic spelled 1 / (1 + exp (-a)).  On the extended reals a
  change of float format is the identity, a product into a zero accumulator is the plain sum, and the one
  law that joins the two sides is associativity of addition: (s + b_ih) + b_hh = s + (b_ih + b_hh).
  No finiteness of the inputs is used.

  The three frames are the generated ones (the reference's is its run with the result dropped); the
  ideal pass rewrote nothing, so the idealization claim is trivial; the algebraic claim sets the kernel's
  result array (the specification of the arguments, block by block) beside the reference's term (the
  specification, index by index).
-/
import proofs.«404537_j26465588478585_3_alg».proof.Defs
import proofs.«404537_j26465588478585_3_alg».proof.Proof.Gen.Kernel
import proofs.«404537_j26465588478585_3_alg».proof.Proof.Gen.Kernel.Skeleton
import proofs.«404537_j26465588478585_3_alg».proof.Proof.Gen.Kernel.Launch
import proofs.«404537_j26465588478585_3_alg».proof.Proof.Gen.Kernel.Points
import proofs.«404537_j26465588478585_3_alg».proof.Proof.Gen.Kernel.Frame
import proofs.«404537_j26465588478585_3_alg».proof.Proof.Gen.KernelIdeal
import proofs.«404537_j26465588478585_3_alg».proof.Proof.Gen.KernelIdeal.Skeleton
import proofs.«404537_j26465588478585_3_alg».proof.Proof.Gen.KernelIdeal.Launch
import proofs.«404537_j26465588478585_3_alg».proof.Proof.Gen.KernelIdeal.Points
import proofs.«404537_j26465588478585_3_alg».proof.Proof.Gen.KernelIdeal.Frame
import proofs.«404537_j26465588478585_3_alg».proof.Proof.Gen.ReferenceIdeal
import proofs.«404537_j26465588478585_3_alg».proof.Proof.Gen.Pre_finite_inputs
import proofs.«404537_j26465588478585_3_alg».proof.Proof.Gen.KernelIdeal.Value
import proofs.«404537_j26465588478585_3_alg».proof.Proof.Gen.ReferenceIdeal.Run
import proofs.«404537_j26465588478585_3_alg».proof.Proof.Gen.ReferenceIdeal.Read
import proofs.«404537_j26465588478585_3_alg».proof.Proof.KernelValue
import proofs.«404537_j26465588478585_3_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a line of host operations: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the arguments both programs end with the specification of those arguments:
    the kernel's result array block by block, the reference's term index by index. -/
theorem algebraic : Cert.algebraic_KernelIdeal_ReferenceIdeal := by
  intro m ρ m' ρ' _ hagree
  refine ⟨fun c => Cert.KernelIdeal.KValue.Gm m c, ?_, ?_⟩
  · exact (θ_run Cert.KernelIdeal.defs _ _).mono
      (fun r h c => ⟨(h c).1.trans (Cert.KernelIdeal.KValue.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, _, h7, h8, h9, _, h11, h12, h13, _, h15, h16⟩ := hagree c
    rw [Cert.ReferenceIdeal.Read.val_main_v127_eq, Cert.ReferenceIdeal.RefValue.ref_is_G,
      h0, h1, h2, h3, h4, h5, h7, h8, h9, h11, h12, h13, h15, h16]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
